-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64x16 .f32) (main_arg6 : FVec F S16 .f32) (main_arg7 : FVec F S64x16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S64x16 .f32 := Host.absf main_arg7
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64x16 .f32) (main_arg6 : FVec F S16 .f32) (main_arg7 : FVec F S64x16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S2000x64 : Shape := ⟨2, ![2000, 64]⟩
abbrev S1x16 : Shape := ⟨2, ![1, 16]⟩
abbrev S50000x16 : Shape := ⟨2, ![50000, 16]⟩
abbrev S2000x16 : Shape := ⟨2, ![2000, 16]⟩

abbrev nBuf : Space → Nat
  | .hbm => 82
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x16, .f32⟩
  | .hbm, ⟨6, _⟩ => ⟨S16, .f32⟩
  | .hbm, ⟨7, _⟩ => ⟨S64x16, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000x1, .f32⟩
  | .hbm, ⟨34, _⟩ => ⟨S50000x1, .i1⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S_, .f32⟩
  | .hbm, ⟨42, _⟩ => ⟨S50000x64, .i1⟩
  | .hbm, ⟨43, _⟩ => ⟨S50000x64, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S_, .f32⟩
  | .hbm, ⟨61, _⟩ => ⟨S800000, .f32⟩
  | .hbm, ⟨62, _⟩ => ⟨S_, .f32⟩
  | .hbm, ⟨63, _⟩ => ⟨S50000, .f32⟩
  | .hbm, ⟨64, _⟩ => ⟨S800000x1, .i32⟩
  | .hbm, ⟨65, _⟩ => ⟨S50000, .f32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .i1⟩
  | .hbm, ⟨70, _⟩ => ⟨S_, .f32⟩
  | .hbm, ⟨71, _⟩ => ⟨S50000x1, .f32⟩
  | .hbm, ⟨72, _⟩ => ⟨S50000x1, .f32⟩
  | .hbm, ⟨73, _⟩ => ⟨S50000x64, .f32⟩
  | .hbm, ⟨74, _⟩ => ⟨S50000x64, .f32⟩
  | .hbm, ⟨75, _⟩ => ⟨S_, .f32⟩
  | .hbm, ⟨76, _⟩ => ⟨S_, .f32⟩
  | .hbm, ⟨77, _⟩ => ⟨S50000x64, .i1⟩
  | .hbm, ⟨78, _⟩ => ⟨S50000x64, .f32⟩
  | .hbm, ⟨79, _⟩ => ⟨S50000x64, .f32⟩
  | .hbm, ⟨80, _⟩ => ⟨S1x16, .f32⟩
  | .hbm, ⟨81, _⟩ => ⟨S50000x16, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x16, .f32⟩
  | .local _ .vmem, ⟨14, _⟩ => ⟨S64x16, .f32⟩
  | .local _ .vmem, ⟨15, _⟩ => ⟨S1x16, .f32⟩
  | .local _ .vmem, ⟨16, _⟩ => ⟨S2000x16, .f32⟩
  | .local _ .vmem, ⟨17, _⟩ => ⟨S2000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_13 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S2000x64_S64x64_S2000x64_1_0_0_1_n_n_wf : DotDims.WF S2000x64 S64x64 S2000x64 [1] [0] [0] [1] [] []
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x16.size a ≤ S50000x16.size a
  hwx1_5 : ∀ i : grid1.Coords, EltTy.bits .f32 = 32 ∨ (Rect.block (s := S50000x16) S2000x16.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_v25) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S2000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S50000x16 : Shape := ⟨2, ![50000, 16]⟩
abbrev S1x16 : Shape := ⟨2, ![1, 16]⟩

abbrev nBuf : Space → Nat
  | .hbm => 109
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x16, .f32⟩
  | .hbm, ⟨6, _⟩ => ⟨S16, .f32⟩
  | .hbm, ⟨7, _⟩ => ⟨S64x16, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000x1, .f32⟩
  | .hbm, ⟨34, _⟩ => ⟨S50000x1, .i1⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S_, .f32⟩
  | .hbm, ⟨42, _⟩ => ⟨S50000x64, .i1⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S1x64, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S50000x64, .f32⟩
  | .hbm, ⟨53, _⟩ => ⟨S50000x64, .i1⟩
  | .hbm, ⟨54, _⟩ => ⟨S_, .f32⟩
  | .hbm, ⟨55, _⟩ => ⟨S50000x64, .f32⟩
  | .hbm, ⟨56, _⟩ => ⟨S50000x64, .i1⟩
  | .hbm, ⟨57, _⟩ => ⟨S_, .f32⟩
  | .hbm, ⟨58, _⟩ => ⟨S_, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S_, .f32⟩
  | .hbm, ⟨63, _⟩ => ⟨S50000x64, .f32⟩
  | .hbm, ⟨64, _⟩ => ⟨S50000x64, .f32⟩
  | .hbm, ⟨65, _⟩ => ⟨S50000x64, .f32⟩
  | .hbm, ⟨66, _⟩ => ⟨S1x800000, .i32⟩
  | .hbm, ⟨67, _⟩ => ⟨S800000, .i32⟩
  | .hbm, ⟨68, _⟩ => ⟨S1x800000, .i32⟩
  | .hbm, ⟨69, _⟩ => ⟨S800000, .i32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x64, .f32⟩
  | .hbm, ⟨79, _⟩ => ⟨S_, .f32⟩
  | .hbm, ⟨80, _⟩ => ⟨S50000x64, .f32⟩
  | .hbm, ⟨81, _⟩ => ⟨S800000x1, .i32⟩
  | .hbm, ⟨82, _⟩ => ⟨S50000x64, .f32⟩
  | .hbm, ⟨83, _⟩ => ⟨S_, .f32⟩
  | .hbm, ⟨84, _⟩ => ⟨S800000, .f32⟩
  | .hbm, ⟨85, _⟩ => ⟨S_, .f32⟩
  | .hbm, ⟨86, _⟩ => ⟨S50000, .f32⟩
  | .hbm, ⟨87, _⟩ => ⟨S800000x1, .i32⟩
  | .hbm, ⟨88, _⟩ => ⟨S50000, .f32⟩
  | .hbm, ⟨89, _⟩ => ⟨S50000x1, .f32⟩
  | .hbm, ⟨90, _⟩ => ⟨S_, .f32⟩
  | .hbm, ⟨91, _⟩ => ⟨S50000x1, .f32⟩
  | .hbm, ⟨92, _⟩ => ⟨S50000x1, .i1⟩
  | .hbm, ⟨93, _⟩ => ⟨S_, .f32⟩
  | .hbm, ⟨94, _⟩ => ⟨S50000x1, .f32⟩
  | .hbm, ⟨95, _⟩ => ⟨S50000x1, .f32⟩
  | .hbm, ⟨96, _⟩ => ⟨S50000x64, .f32⟩
  | .hbm, ⟨97, _⟩ => ⟨S50000x64, .f32⟩
  | .hbm, ⟨98, _⟩ => ⟨S_, .f32⟩
  | .hbm, ⟨99, _⟩ => ⟨S_, .f32⟩
  | .hbm, ⟨100, _⟩ => ⟨S50000x64, .i1⟩
  | .hbm, ⟨101, _⟩ => ⟨S50000x64, .f32⟩
  | .hbm, ⟨102, _⟩ => ⟨S50000x64, .f32⟩
  | .hbm, ⟨103, _⟩ => ⟨S50000x16, .f32⟩
  | .hbm, ⟨104, _⟩ => ⟨S1x16, .f32⟩
  | .hbm, ⟨105, _⟩ => ⟨S50000x16, .f32⟩
  | .hbm, ⟨106, _⟩ => ⟨S50000x16, .f32⟩
  | .hbm, ⟨107, _⟩ => ⟨S50000x16, .f32⟩
  | .hbm, ⟨108, _⟩ => ⟨S50000x16, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_cst_1 : Ref sig .tc := ⟨.hbm, 57, rfl⟩
abbrev main_call1_call0_v0 : Ref sig .tc := ⟨.hbm, 58, rfl⟩
abbrev main_call1_call0_v1 : Ref sig .tc := ⟨.hbm, 59, rfl⟩
abbrev main_call1_v4 : Ref sig .tc := ⟨.hbm, 60, rfl⟩
abbrev main_call1_v5 : Ref sig .tc := ⟨.hbm, 61, rfl⟩
abbrev main_call1_cst_2 : Ref sig .tc := ⟨.hbm, 62, rfl⟩
abbrev main_call1_v6 : Ref sig .tc := ⟨.hbm, 63, rfl⟩
abbrev main_call1_v7 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_6 : Ref sig .tc := ⟨.hbm, 70, rfl⟩
abbrev main_v37 : Ref sig .tc := ⟨.hbm, 71, rfl⟩
abbrev main_v38 : Ref sig .tc := ⟨.hbm, 72, rfl⟩
abbrev main_c_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_8 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_9 : Ref sig .tc := ⟨.hbm, 83, rfl⟩
abbrev main_v47 : Ref sig .tc := ⟨.hbm, 84, rfl⟩
abbrev main_cst_10 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_11 : Ref sig .tc := ⟨.hbm, 90, rfl⟩
abbrev main_v52 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_13 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  dot_S50000x64_S64x16_S50000x16_1_0_0_1_n_n_wf : DotDims.WF S50000x64 S64x16 S50000x16 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.Agg.lean ====
/-
  The neighbourhood average, as one function of a feature matrix and the two endpoint lists of the edges.

  With src and dst the two rows of the edge list, the average at node n is the sum of the feature rows feat[src e]
  over the edges e with dst e = n, divided by max(count, 1), where count is the number of such edges, and zero where
  there is none. A negative source index is first shifted up by the number of nodes. The function is written here
  once, with the host operations that both programs apply in the same order, and is never opened: the two programs
  are compared with the same feature matrix and the same edge list put into it.
-/
import proofs.«181839_j72164040507401_1_alg».proof.KernelIdeal
import proofs.«181839_j72164040507401_1_alg».proof.Proof.Gen.KernelIdeal

noncomputable section

namespace Cert.Sage

open Idealize.ShloMosaic Cert.KernelIdeal Cert.KernelIdeal.Gen

variable {F : FTy → Type} [FloatOps F]

/-- The sources of the edges: row 0 of the edge list. -/
def srcOf (E : IVec S2x800000 32) : IVec S800000 32 :=
  shapeCast S800000 (extractStridedSlice S1x800000 ![0, 0] E slices_S2x800000_S1x800000_0_0) shapeCasts_S1x800000_S800000

/-- The destinations of the edges: row 1 of the edge list. -/
def dstOf (E : IVec S2x800000 32) : IVec S800000 32 :=
  shapeCast S800000 (extractStridedSlice S1x800000 ![1, 0] E slices_S2x800000_S1x800000_1_0) shapeCasts_S1x800000_S800000

/-- How many edges end at each node, as a column. -/
def inDegree (dst : IVec S800000 32) : FVec F S50000x1 .f32 :=
  broadcastInDim S50000x1 ![0] bcast_S50000_S50000x1_0
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))

/-- The mean of the features over each node's incoming edges; zero for a node with none. -/
def aggregate (feat : FVec F S50000x64 .f32) (src dst : IVec S800000 32) : FVec F S50000x64 .f32 :=
  select
    (broadcastInDim S50000x64 ![0, 1] bcast_S50000x1_S50000x64_0_1
      (cmpf .ogt (inDegree (F := F) dst) (broadcastInDim S50000x1 ![] bcast_S_S50000x1 (constant S_ .f32 0x00000000#32))))
    (Host.divf
      (Host.scatterAdd scatter_S50000x64_S800000x1_S800000x64_1_0_0_1
        (broadcastInDim S50000x64 ![] bcast_S_S50000x64 (constant S_ .f32 0x00000000#32))
        (broadcastInDim S800000x1 ![0] bcast_S800000_S800000x1_0 dst)
        (Host.gather gather_S50000x64_S800000x1_S800000x64_1_0_n_n_0_1_164 feat
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32)))
              src))))
      (broadcastInDim S50000x64 ![0, 1] bcast_S50000x1_S50000x64_0_1
        (maximumf (inDegree (F := F) dst) (broadcastInDim S50000x1 ![] bcast_S_S50000x1 (constant S_ .f32 0x3F800000#32)))))
    (broadcastInDim S50000x64 ![] bcast_S_S50000x64 (id (constant S_ .f32 0x00000000#32)))

end Cert.Sage

end
-- ==== Proof.KHost.lean ====
/-
  What the two kernel regions find in their arrays. Between the launch and the first region the program computes the
  neighbourhood average of the node features and lays the first bias out as a row; between the two regions it computes
  the neighbourhood average of the first region's result, with the same two endpoint lists, and lays the second bias
  out as a row. No host operation and no region writes an argument array, nor the endpoint lists once they are
  computed, so each is read back through the chain of segment boundaries to where it was written.
-/
import proofs.«181839_j72164040507401_1_alg».proof.Proof.Gen.KernelIdeal.Frame
import proofs.«181839_j72164040507401_1_alg».proof.Proof.Agg
import Idealize.ShloMosaic.Lib.StableHlo.Run

set_option maxRecDepth 16384

noncomputable section

namespace Cert.Sage

open Idealize.ShloMosaic Idealize.ShloMosaic.TcCoe Idealize.ShloMosaic.StableHlo Idealize.SL.Sem Cert.KernelIdeal Cert.KernelIdeal.Gen

variable {F : FTy → Type} [FloatOps F]

/-! ## The host stretches, from any contents -/

/-- The stretch before the first region leaves the neighbourhood average of the features in the first window's array. -/
theorem stretch0_v25 (V : Valuation τ sig (Elt F)) :
    after (hostOps0_2 (F := F)) (after hostOps0_1 (after hostOps0 V)) (Proc.devRef .tc main_v25)
      = aggregate (F := F) (V (Proc.devRef .tc main_arg0)) (srcOf (V (Proc.devRef .tc main_arg1))) (dstOf (V (Proc.devRef .tc main_arg1))) := by
  dsimp only [hostOps0, hostOps0_1, hostOps0_2]
  after_results_simp
  rfl

/-- … and the first bias as a row. -/
theorem stretch0_v26 (V : Valuation τ sig (Elt F)) :
    after (hostOps0_2 (F := F)) (after hostOps0_1 (after hostOps0 V)) (Proc.devRef .tc main_v26)
      = shapeCast S1x64 (V (Proc.devRef .tc main_arg3)) shapeCasts_S64_S1x64 := by
  dsimp only [hostOps0, hostOps0_1, hostOps0_2]
  after_results_simp
  rfl

/-- … and the edges' sources and destinations where the second stretch reads them again. -/
theorem stretch0_v1 (V : Valuation τ sig (Elt F)) :
    after (hostOps0_2 (F := F)) (after hostOps0_1 (after hostOps0 V)) (Proc.devRef .tc main_v1)
      = srcOf (V (Proc.devRef .tc main_arg1)) := by
  dsimp only [hostOps0, hostOps0_1, hostOps0_2]
  after_results_simp
  rfl

theorem stretch0_v3 (V : Valuation τ sig (Elt F)) :
    after (hostOps0_2 (F := F)) (after hostOps0_1 (after hostOps0 V)) (Proc.devRef .tc main_v3)
      = dstOf (V (Proc.devRef .tc main_arg1)) := by
  dsimp only [hostOps0, hostOps0_1, hostOps0_2]
  after_results_simp
  rfl

/-- The stretch before the first region writes none of the arrays the first region reads directly. -/
theorem stretch0_arg0 (V : Valuation τ sig (Elt F)) :
    after (hostOps0_2 (F := F)) (after hostOps0_1 (after hostOps0 V)) (Proc.devRef .tc main_arg0) = V (Proc.devRef .tc main_arg0) := by
  dsimp only [hostOps0, hostOps0_1, hostOps0_2]
  after_results_simp
theorem stretch0_arg2 (V : Valuation τ sig (Elt F)) :
    after (hostOps0_2 (F := F)) (after hostOps0_1 (after hostOps0 V)) (Proc.devRef .tc main_arg2) = V (Proc.devRef .tc main_arg2) := by
  dsimp only [hostOps0, hostOps0_1, hostOps0_2]
  after_results_simp
theorem stretch0_arg4 (V : Valuation τ sig (Elt F)) :
    after (hostOps0_2 (F := F)) (after hostOps0_1 (after hostOps0 V)) (Proc.devRef .tc main_arg4) = V (Proc.devRef .tc main_arg4) := by
  dsimp only [hostOps0, hostOps0_1, hostOps0_2]
  after_results_simp

theorem stretch0_arg5 (V : Valuation τ sig (Elt F)) :
    after (hostOps0_2 (F := F)) (after hostOps0_1 (after hostOps0 V)) (Proc.devRef .tc main_arg5) = V (Proc.devRef .tc main_arg5) := by
  dsimp only [hostOps0, hostOps0_1, hostOps0_2]
  after_results_simp
theorem stretch0_arg6 (V : Valuation τ sig (Elt F)) :
    after (hostOps0_2 (F := F)) (after hostOps0_1 (after hostOps0 V)) (Proc.devRef .tc main_arg6) = V (Proc.devRef .tc main_arg6) := by
  dsimp only [hostOps0, hostOps0_1, hostOps0_2]
  after_results_simp
theorem stretch0_arg7 (V : Valuation τ sig (Elt F)) :
    after (hostOps0_2 (F := F)) (after hostOps0_1 (after hostOps0 V)) (Proc.devRef .tc main_arg7) = V (Proc.devRef .tc main_arg7) := by
  dsimp only [hostOps0, hostOps0_1, hostOps0_2]
  after_results_simp

/-- The stretch between the regions leaves the neighbourhood average of the first region's result, taken with the
    endpoint lists computed before the first region. -/
theorem stretch1_v49 (V : Valuation τ sig (Elt F)) :
    after (hostOps1_2 (F := F)) (after hostOps1_1 (after hostOps1 V)) (Proc.devRef .tc main_v49)
      = aggregate (F := F) (V (Proc.devRef .tc main_v27)) (V (Proc.devRef .tc main_v1)) (V (Proc.devRef .tc main_v3)) := by
  dsimp only [hostOps1, hostOps1_1, hostOps1_2]
  after_results_simp
  rfl

/-- … and the second bias as a row. -/
theorem stretch1_v50 (V : Valuation τ sig (Elt F)) :
    after (hostOps1_2 (F := F)) (after hostOps1_1 (after hostOps1 V)) (Proc.devRef .tc main_v50)
      = shapeCast S1x16 (V (Proc.devRef .tc main_arg6)) shapeCasts_S16_S1x16 := by
  dsimp only [hostOps1, hostOps1_1, hostOps1_2]
  after_results_simp
  rfl

theorem stretch1_v27 (V : Valuation τ sig (Elt F)) :
    after (hostOps1_2 (F := F)) (after hostOps1_1 (after hostOps1 V)) (Proc.devRef .tc main_v27) = V (Proc.devRef .tc main_v27) := by
  dsimp only [hostOps1, hostOps1_1, hostOps1_2]
  after_results_simp
theorem stretch1_arg5 (V : Valuation τ sig (Elt F)) :
    after (hostOps1_2 (F := F)) (after hostOps1_1 (after hostOps1 V)) (Proc.devRef .tc main_arg5) = V (Proc.devRef .tc main_arg5) := by
  dsimp only [hostOps1, hostOps1_1, hostOps1_2]
  after_results_simp
theorem stretch1_arg6 (V : Valuation τ sig (Elt F)) :
    after (hostOps1_2 (F := F)) (after hostOps1_1 (after hostOps1 V)) (Proc.devRef .tc main_arg6) = V (Proc.devRef .tc main_arg6) := by
  dsimp only [hostOps1, hostOps1_1, hostOps1_2]
  after_results_simp
theorem stretch1_arg7 (V : Valuation τ sig (Elt F)) :
    after (hostOps1_2 (F := F)) (after hostOps1_1 (after hostOps1 V)) (Proc.devRef .tc main_arg7) = V (Proc.devRef .tc main_arg7) := by
  dsimp only [hostOps1, hostOps1_1, hostOps1_2]
  after_results_simp

/-! ## The regions' entry contents, from the launch memory -/

variable (m : (ℓ : Loc nD τ sig) → Buf (Elt F) ℓ) (ρ : Dev nD → PrngReg)

theorem V3_v25 (c : Dev nD) : V3 m ρ c main_v25
    = aggregate (F := F) (m ((c : Thread nD τ).loc main_arg0)) (srcOf (m ((c : Thread nD τ).loc main_arg1))) (dstOf (m ((c : Thread nD τ).loc main_arg1))) :=
  stretch0_v25 (W0 m ρ c)
theorem V3_v26 (c : Dev nD) : V3 m ρ c main_v26 = shapeCast S1x64 (m ((c : Thread nD τ).loc main_arg3)) shapeCasts_S64_S1x64 :=
  stretch0_v26 (W0 m ρ c)
theorem V3_arg0 (c : Dev nD) : V3 m ρ c main_arg0 = m ((c : Thread nD τ).loc main_arg0) := stretch0_arg0 (W0 m ρ c)
theorem V3_arg2 (c : Dev nD) : V3 m ρ c main_arg2 = m ((c : Thread nD τ).loc main_arg2) := stretch0_arg2 (W0 m ρ c)
theorem V3_arg4 (c : Dev nD) : V3 m ρ c main_arg4 = m ((c : Thread nD τ).loc main_arg4) := stretch0_arg4 (W0 m ρ c)

/-- The first region leaves the endpoint lists alone: it writes only its own result array. -/
theorem W4_v1 (c : Dev nD) : W4 m ρ c (Proc.devRef .tc main_v1) = srcOf (m ((c : Thread nD τ).loc main_arg1)) :=
  (W4_of_ne m ρ c main_v1 (by decide)).trans (stretch0_v1 (W0 m ρ c))
theorem W4_v3 (c : Dev nD) : W4 m ρ c (Proc.devRef .tc main_v3) = dstOf (m ((c : Thread nD τ).loc main_arg1)) :=
  (W4_of_ne m ρ c main_v3 (by decide)).trans (stretch0_v3 (W0 m ρ c))
/-- … and its result array holds what its write-backs leave. -/
theorem W4_v27 (c : Dev nD) : W4 m ρ c (Proc.devRef .tc main_v27) = (dat0 (V3 m ρ) c).arrAt 5 cfg0.N := W4_arr m ρ c 5
/-- The arguments the second region reads are as launched when the first region ends. -/
theorem W4_arg5 (c : Dev nD) : W4 m ρ c (Proc.devRef .tc main_arg5) = m ((c : Thread nD τ).loc main_arg5) :=
  (W4_of_ne m ρ c main_arg5 (by decide)).trans (stretch0_arg5 (W0 m ρ c))
theorem W4_arg6 (c : Dev nD) : W4 m ρ c (Proc.devRef .tc main_arg6) = m ((c : Thread nD τ).loc main_arg6) :=
  (W4_of_ne m ρ c main_arg6 (by decide)).trans (stretch0_arg6 (W0 m ρ c))
theorem W4_arg7 (c : Dev nD) : W4 m ρ c (Proc.devRef .tc main_arg7) = m ((c : Thread nD τ).loc main_arg7) :=
  (W4_of_ne m ρ c main_arg7 (by decide)).trans (stretch0_arg7 (W0 m ρ c))

theorem V7_v49 (c : Dev nD) : V7 m ρ c main_v49
    = aggregate (F := F) ((dat0 (V3 m ρ) c).arrAt 5 cfg0.N) (srcOf (m ((c : Thread nD τ).loc main_arg1))) (dstOf (m ((c : Thread nD τ).loc main_arg1))) := by
  refine (stretch1_v49 (W4 m ρ c)).trans ?_
  rw [W4_v1, W4_v3, W4_v27]
theorem V7_v27 (c : Dev nD) : V7 m ρ c main_v27 = (dat0 (V3 m ρ) c).arrAt 5 cfg0.N :=
  (stretch1_v27 (W4 m ρ c)).trans (W4_v27 m ρ c)
theorem V7_v50 (c : Dev nD) : V7 m ρ c main_v50 = shapeCast S1x16 (m ((c : Thread nD τ).loc main_arg6)) shapeCasts_S16_S1x16 := by
  refine (stretch1_v50 (W4 m ρ c)).trans ?_
  rw [W4_arg6]
theorem V7_arg5 (c : Dev nD) : V7 m ρ c main_arg5 = m ((c : Thread nD τ).loc main_arg5) :=
  (stretch1_arg5 (W4 m ρ c)).trans (W4_arg5 m ρ c)
theorem V7_arg7 (c : Dev nD) : V7 m ρ c main_arg7 = m ((c : Thread nD τ).loc main_arg7) :=
  (stretch1_arg7 (W4 m ρ c)).trans (W4_arg7 m ρ c)

end Cert.Sage

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Sage.lean ====
/-
  Two rounds of neighbourhood averaging followed by a dense stage, written index by index over the extended reals.

  A dense stage takes an aggregated feature matrix A and the node features X (both 50000 x 64), two weight matrices
  Wl and Wr (64 x D) and a bias b (length D); its entry at row p and column q is
      (sum over k of A(p,k) * Wl(k,q)) + (sum over k of X(p,k) * Wr(k,q)) + b(q).
  The first stage (D = 64) is followed by the exponential linear unit z -> z if 0 < z, else exp z - 1; the second
  (D = 16) is not.
-/
import proofs.«181839_j72164040507401_1_alg».proof.Proof.LibPlainDot
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- The entry (p, q) of a dense stage before its activation: the two matrix products and the bias, added left to right. -/
def lin {D : Nat} (A X : FVec Ideal ⟨2, ![50000, 64]⟩ .f32) (Wl Wr : FVec Ideal ⟨2, ![64, D]⟩ .f32) (b : Fin D → EReal)
    (p : Fin 50000) (q : Fin D) : EReal :=
  (∑ κ : Fin 64, A (ix2 p κ) * Wl (ix2 κ q)) + (∑ κ : Fin 64, X (ix2 p κ) * Wr (ix2 κ q)) + b q

/-- The exponential linear unit on an extended real: the argument where it is positive, exp z - 1 elsewhere. The
    comparison is the ordered "greater than" against the float zero, the subtrahend the float one. -/
def elu (z : EReal) : EReal :=
  Scalar.select (FloatOps.cmpf (F := Ideal) (φ := .f32) .ogt z (Ideal.ofBits .f32 0x00000000#32)) z
    (Ideal.exp z - Ideal.ofBits .f32 0x3F800000#32)

/-- The hidden layer: a dense stage of width 64 under the exponential linear unit. -/
def hidden (A X : FVec Ideal ⟨2, ![50000, 64]⟩ .f32) (Wl Wr : FVec Ideal ⟨2, ![64, 64]⟩ .f32) (b : Fin 64 → EReal) :
    FVec Ideal ⟨2, ![50000, 64]⟩ .f32 :=
  fun i => elu (lin A X Wl Wr b (i 0) (i 1))

/-- The output layer: a dense stage of width 16, no activation. -/
def output (A X : FVec Ideal ⟨2, ![50000, 64]⟩ .f32) (Wl Wr : FVec Ideal ⟨2, ![64, 16]⟩ .f32) (b : Fin 16 → EReal) :
    FVec Ideal ⟨2, ![50000, 16]⟩ .f32 :=
  fun i => lin A X Wl Wr b (i 0) (i 1)

theorem hidden_apply (A X : FVec Ideal ⟨2, ![50000, 64]⟩ .f32) (Wl Wr : FVec Ideal ⟨2, ![64, 64]⟩ .f32) (b : Fin 64 → EReal)
    (p : Fin 50000) (q : Fin 64) : hidden A X Wl Wr b (ix2 p q) = elu (lin A X Wl Wr b p q) := rfl

theorem output_apply (A X : FVec Ideal ⟨2, ![50000, 64]⟩ .f32) (Wl Wr : FVec Ideal ⟨2, ![64, 16]⟩ .f32) (b : Fin 16 → EReal)
    (p : Fin 50000) (q : Fin 16) : output A X Wl Wr b (ix2 p q) = lin A X Wl Wr b p q := rfl

end Cert.Sage

end
-- ==== Proof.KBody0.lean ====
/-
  The first kernel body at an index: from the five blocks it loads, the value stored at row p and column q of the
  output block is the exponential linear unit of (row p of the aggregate block times column q of the left weights)
  + (row p of the feature block times column q of the right weights) + the bias at q.

  The argument reads the body's one arithmetic term from the outside in. The select, the comparison, the difference and
  the two splat scalars are pointwise, so at (p, q) they act on the pre-activation's entry there. The pre-activation is a
  sum of two matrix products into a zero accumulator and of the bias row repeated down the rows: each product's entry
  is the sum over the contracted coordinate, and the repeated row's entry at (p, q) is the row's entry at (0, q).
  The narrowing of the operands to the shorter float format changes nothing over the extended reals, and a reshape to
  the same shape is the identity.
-/
import proofs.«181839_j72164040507401_1_alg».proof.Proof.Gen.KernelIdeal.Skeleton
import proofs.«181839_j72164040507401_1_alg».proof.Proof.Sage
import Idealize.ShloMosaic.Lib.ValueLayout

noncomputable section

open scoped BigOperators

namespace Cert.Sage

open Idealize.ShloMosaic Idealize.ShloMosaic.ValueIdx Cert.KernelIdeal Cert.KernelIdeal.Gen

/-- A 2000 x 64 by 64 x 64 product into the zero accumulator, at (p, q): the sum over κ of l (p, κ) * r (κ, q). The
    dimension numbers contract the left operand's columns with the right operand's rows and have no batch axes. -/
private theorem matmul64_apply (l : FVec Ideal S2000x64 .bf16) (r : FVec Ideal S64x64 .bf16) (p : Fin 2000) (q : Fin 64) :
    matmul dot_S2000x64_S64x64_S2000x64_1_0_0_1_n_n none l r (constant S2000x64 .f32 0x00000000#32) (ix2 p q)
      = ∑ κ : Fin 64, l (ix2 p κ) * r (ix2 κ q) :=
  PlainDot.matmul_zero_plain _ ⟨rfl, rfl, rfl, rfl, rfl, rfl⟩ none l r p q

/-- The pre-activation at (p, q): the two products' entries, added, plus the bias row's entry at (0, q), the row being
    the same in every row of the 2000 x 64 block. -/
private theorem pre0_apply (a b : FVec Ideal S2000x64 .bf16) (c d : FVec Ideal S64x64 .bf16) (e : FVec Ideal S1x64 .f32)
    (p : Fin 2000) (q : Fin 64) :
    (addf (addf
        (matmul dot_S2000x64_S64x64_S2000x64_1_0_0_1_n_n none a c (constant S2000x64 .f32 0x00000000#32))
        (matmul dot_S2000x64_S64x64_S2000x64_1_0_0_1_n_n none b d (constant S2000x64 .f32 0x00000000#32)))
      (broadcastTo S2000x64 e broadcasts_S1x64_S2000x64) : FVec Ideal S2000x64 .f32) (ix2 p q)
      = (∑ κ : Fin 64, a (ix2 p κ) * c (ix2 κ q)) + (∑ κ : Fin 64, b (ix2 p κ) * d (ix2 κ q)) + e (ix2 (0 : Fin 1) q) := by
  rw [addf_apply, addf_apply, matmul64_apply, matmul64_apply, broadcastTo_1b_ab_apply]

theorem pay0_apply (x0 x1 : Vec Ideal S2000x64 .f32) (x2 x3 : Vec Ideal S64x64 .f32) (x4 : Vec Ideal S1x64 .f32)
    (p : Fin 2000) (q : Fin 64) :
    k0_pay1 (F := Ideal) x0 x1 x2 x3 x4 (ix2 p q)
      = elu ((∑ κ : Fin 64, (x0 (ix2 p κ) : EReal) * (x2 (ix2 κ q) : EReal))
          + (∑ κ : Fin 64, (x1 (ix2 p κ) : EReal) * (x3 (ix2 κ q) : EReal)) + (x4 (ix2 (0 : Fin 1) q) : EReal)) := by
  unfold k0_pay1
  -- the two reshapes are to the shape they start from
  simp only [shapeCast_self]
  -- the activation is pointwise: at (p, q) it is the scalar select on the pre-activation's entry z there, between z and
  -- exp z minus the float one, decided by the ordered comparison of z against the float zero
  rw [select_apply, cmpf_apply, subf_apply, broadcast_apply, broadcast_apply]
  show Scalar.select (FloatOps.cmpf CmpFPredicate.ogt _ _) _ (FloatOps.exp _ - _) = _
  rw [pre0_apply]
  -- what is left is the unit's definition, the narrowed operands read as the operands themselves
  rfl

end Cert.Sage

end
-- ==== Proof.KBlocks0.lean ====
/-
  The first kernel region, from blocks to the whole array. Grid point t works on rows 2000 t .. 2000 t + 1999: it
  loads those rows of the aggregate and of the features, the two whole weight matrices and the bias row, and writes
  those rows of the result. The 25 points cover all 50000 rows, so after the region the result array is the hidden
  layer of the arrays the region found, entry by entry.
-/
import proofs.«181839_j72164040507401_1_alg».proof.Proof.Gen.KernelIdeal.Frame
import proofs.«181839_j72164040507401_1_alg».proof.Proof.KBody0
import Idealize.ShloMosaic.Lib.Pipeline.Value

set_option maxRecDepth 16384

noncomputable section

open scoped BigOperators

namespace Cert.Sage

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- Every load and the store of the body start at the origin of their buffer. -/
private theorem origin0 : (![0, 0] : Fin 2 → Nat) = fun _ => 0 := funext fun a => by fin_cases a <;> rfl

/-- The block index of each window at each of the 25 grid points: the three row-tiled windows (aggregate, features,
    result) sit at block (t, 0); the weights and the bias row sit at block (0, 0). -/
private theorem tile_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregate's tile at point t is row 2000 t + p of the aggregate. -/
private theorem aggregate_tile0 (c : Dev nD) (t : Fin cfg0.N) (y : S2000x64.Idx) (i : S50000x64.Idx)
    (h0 : (i 0).val = 2000 * t.val + (y 0).val) (h1 : (i 1).val = (y 1).val) :
    (iblk0 (F := Ideal) V c 0 t : Vec Ideal S2000x64 .f32) y = (V c main_v25 : S50000x64.Idx → EReal) i := by
  obtain ⟨e0, e1, -⟩ := tile_index0 t
  unfold iblk0
  rw [View.read_apply]
  show V c main_v25 _ = V c main_v25 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 64 + 1 * (y 1).val = (i 1).val; rw [e1, h1]; omega

/-- Row p of the features' tile at point t is row 2000 t + p of the features. -/
private theorem features_tile0 (c : Dev nD) (t : Fin cfg0.N) (y : S2000x64.Idx) (i : S50000x64.Idx)
    (h0 : (i 0).val = 2000 * t.val + (y 0).val) (h1 : (i 1).val = (y 1).val) :
    (iblk0 (F := Ideal) V c 1 t : Vec Ideal S2000x64 .f32) y = (V c main_arg0 : S50000x64.Idx → EReal) i := by
  obtain ⟨-, -, e0, e1, -⟩ := tile_index0 t
  unfold iblk0
  rw [View.read_apply]
  show V c main_arg0 _ = V c main_arg0 _
  congr 1
  funext a
  apply Fin.ext
  match a with
  | ⟨0, _⟩ => show win0_1.index t (0 : Fin 2) * 2000 + 1 * (y 0).val = (i 0).val; rw [e0, h0]; omega
  | ⟨1, _⟩ => show win0_1.index t (1 : Fin 2) * 64 + 1 * (y 1).val = (i 1).val; rw [e1, h1]; omega

/-- The left weights' block at every point is the whole matrix. -/
private theorem left_weights0 (c : Dev nD) (t : Fin cfg0.N) (y : S64x64.Idx) :
    (iblk0 (F := Ideal) V c 2 t : Vec Ideal S64x64 .f32) y = (V c main_arg2 : S64x64.Idx → EReal) y := by
  obtain ⟨-, -, -, -, e0, e1, -⟩ := tile_index0 t
  unfold iblk0
  rw [View.read_apply]
  show V c main_arg2 _ = V c main_arg2 _
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The right weights' block at every point is the whole matrix. -/
private theorem right_weights0 (c : Dev nD) (t : Fin cfg0.N) (y : S64x64.Idx) :
    (iblk0 (F := Ideal) V c 3 t : Vec Ideal S64x64 .f32) y = (V c main_arg4 : S64x64.Idx → EReal) y := by
  obtain ⟨-, -, -, -, -, -, e0, e1, -⟩ := tile_index0 t
  unfold iblk0
  rw [View.read_apply]
  show V c main_arg4 _ = V c main_arg4 _
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The bias block at every point is the whole bias row. -/
private theorem bias_row0 (c : Dev nD) (t : Fin cfg0.N) (y : S1x64.Idx) :
    (iblk0 (F := Ideal) V c 4 t : Vec Ideal S1x64 .f32) y = (V c main_v26 : S1x64.Idx → EReal) y := by
  obtain ⟨-, -, -, -, -, -, -, -, e0, e1, -⟩ := tile_index0 t
  unfold iblk0
  rw [View.read_apply]
  show V c main_v26 _ = V c main_v26 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- One entry of a tile: when row p of the two row blocks is row r of the two arrays and the weights and bias are
    the whole arrays, the body's value at (p, q) is the hidden layer's entry (r, q). -/
private theorem tile_entry0 (A X : FVec Ideal ⟨2, ![50000, 64]⟩ .f32) (Wl Wr : FVec Ideal ⟨2, ![64, 64]⟩ .f32)
    (B : FVec Ideal ⟨2, ![1, 64]⟩ .f32)
    (x0 x1 : Vec Ideal S2000x64 .f32) (x2 x3 : Vec Ideal S64x64 .f32) (x4 : Vec Ideal S1x64 .f32)
    (p : Fin 2000) (q : Fin 64) (r : Fin 50000)
    (h0 : ∀ κ : Fin 64, x0 (ix2 p κ) = A (ix2 r κ)) (h1 : ∀ κ : Fin 64, x1 (ix2 p κ) = X (ix2 r κ))
    (h2 : ∀ κ : Fin 64, x2 (ix2 κ q) = Wl (ix2 κ q)) (h3 : ∀ κ : Fin 64, x3 (ix2 κ q) = Wr (ix2 κ q))
    (h4 : x4 (ix2 (0 : Fin 1) q) = B (ix2 (0 : Fin 1) q)) :
    k0_pay1 (F := Ideal) x0 x1 x2 x3 x4 (ix2 p q) = hidden A X Wl Wr (fun q => B (ix2 (0 : Fin 1) q)) (ix2 r q) := by
  rw [pay0_apply, hidden_apply]
  unfold lin
  simp only [h0, h1, h2, h3, h4]

/-- What point t writes back is rows 2000 t .. 2000 t + 1999 of the hidden layer of the arrays the region found. -/
private theorem flushed_tile0 (c : Dev nD) (t : Fin cfg0.N) :
    (dat0 (F := Ideal) V c).flushed 5 t
      = ((cfg0.win 5).blk t).view.read (Elt Ideal)
          (hidden (V c main_v25) (V c main_arg0) (V c main_arg2) (V c main_arg4) (fun q => V c main_v26 (ix2 (0 : Fin 1) q))) := by
  show (cfg0.win 5).cut (grid0.coords t) ((dat0 V c).after 5 t) = _
  rw [after0_5]
  unfold out0_5
  rw [View.canon_unit_zero origin0]
  simp only [View.ld_unit_zero (S := S2000x64) origin0, View.ld_unit_zero (S := S64x64) origin0,
    View.ld_unit_zero (S := S1x64) origin0]
  obtain ⟨-, -, -, -, -, -, -, -, -, -, e0, e1⟩ := tile_index0 t
  funext j
  obtain ⟨p, q, rfl⟩ : ∃ (p : Fin 2000) (q : Fin 64), j = ix2 p q := ⟨j 0, j 1, eq_ix2 j⟩
  have hr : 2000 * t.val + p.val < 50000 := by
    have := t.isLt; have hN : cfg0.N = 25 := N_0; have := p.isLt; omega
  rw [View.read_apply]
  have hemb : ((cfg0.win 5).blk t).view.emb (ix2 p q) = ix2 (⟨2000 * t.val + p.val, hr⟩ : Fin 50000) q := by
    funext a
    apply Fin.ext
    match a with
    | ⟨0, _⟩ => show win0_5.index t (0 : Fin 2) * 2000 + 1 * p.val = 2000 * t.val + p.val; rw [e0]; omega
    | ⟨1, _⟩ => show win0_5.index t (1 : Fin 2) * 64 + 1 * q.val = q.val; rw [e1]; omega
  rw [hemb]
  exact tile_entry0 _ _ _ _ _ _ _ _ _ _ p q ⟨2000 * t.val + p.val, hr⟩
    (fun κ => aggregate_tile0 V c t (ix2 p κ) (ix2 ⟨2000 * t.val + p.val, hr⟩ κ) rfl rfl)
    (fun κ => features_tile0 V c t (ix2 p κ) (ix2 ⟨2000 * t.val + p.val, hr⟩ κ) rfl rfl)
    (fun κ => left_weights0 V c t (ix2 κ q))
    (fun κ => right_weights0 V c t (ix2 κ q))
    (bias_row0 V c t (ix2 (0 : Fin 1) q))

/-- An index of the result array is in point t's tile iff each coordinate is in the tile's range on its axis. -/
private theorem mem_tile0 (t : Fin cfg0.N) (i : S50000x64.Idx) :
    i ∈ ((cfg0.win 5).blk t).view.set
      ↔ ∀ a : Fin 2, win0_5.index t a * S2000x64.size a ≤ (i a).val
          ∧ (i a).val < win0_5.index t a * S2000x64.size a + S2000x64.size a := by
  show i ∈ ((View.whole main_v27).slice (win0_5.rect t)).set ↔ _
  rw [View.set_slice_whole, Rect.mem_set_unit]
  exact Iff.rfl

/-- Row r of the result lies in the tile of point r / 2000: the 25 tiles cover the 50000 rows. -/
private theorem rows_covered0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 25 := N_0
  have ht : (i 0).val / 2000 < cfg0.N := by rw [hN]; omega
  obtain ⟨-, -, -, -, -, -, -, -, -, -, e0, e1⟩ := tile_index0 ⟨(i 0).val / 2000, ht⟩
  refine ⟨⟨(i 0).val / 2000, ht⟩, flush0_5 _, ?_⟩
  rw [mem_tile0]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 64 ≤ (i 1).val
      ∧ (i 1).val < win0_5.index ⟨(i 0).val / 2000, ht⟩ (1 : Fin 2) * 64 + 64
    rw [e1]
    omega

theorem arr0 (c : Dev nD) :
    (dat0 (F := Ideal) V c).arrAt 5 cfg0.N
      = hidden (V c main_v25) (V c main_arg0) (V c main_arg2) (V c main_arg4) (fun q => V c main_v26 (ix2 (0 : Fin 1) q)) :=
  (dat0 (F := Ideal) V c).arrAt_eq_of_cover 5
    (hidden (V c main_v25) (V c main_arg0) (V c main_arg2) (V c main_arg4) (fun q => V c main_v26 (ix2 (0 : Fin 1) q)))
    (fun t _ => flushed_tile0 V c t) rows_covered0

end Cert.Sage

end
-- ==== Proof.KBody1.lean ====
/-
  The second kernel body at an index: the value stored at row p and column q of the output block is
  (row p of the aggregate block times column q of the left weights) + (row p of the feature block times column q of
  the right weights) + the bias at q; no activation follows.

  The body's one arithmetic term is a sum of two matrix products into a zero accumulator and of the bias row repeated
  down the rows. Addition is pointwise; each product's entry at (p, q) is the sum over the contracted coordinate; the
  repeated row's entry at (p, q) is the row's entry at (0, q). The narrowing of the operands to the shorter float format
  changes nothing over the extended reals, and a reshape to the same shape is the identity.
-/
import proofs.«181839_j72164040507401_1_alg».proof.Proof.Gen.KernelIdeal.Skeleton
import proofs.«181839_j72164040507401_1_alg».proof.Proof.Sage
import Idealize.ShloMosaic.Lib.ValueLayout

noncomputable section

open scoped BigOperators

namespace Cert.Sage

open Idealize.ShloMosaic Idealize.ShloMosaic.ValueIdx Cert.KernelIdeal Cert.KernelIdeal.Gen

/-- A 2000 x 64 by 64 x 16 product into the zero accumulator, at (p, q): the sum over κ of l (p, κ) * r (κ, q). The
    dimension numbers contract the left operand's columns with the right operand's rows and have no batch axes. -/
private theorem matmul16_apply (l : FVec Ideal S2000x64 .bf16) (r : FVec Ideal S64x16 .bf16) (p : Fin 2000) (q : Fin 16) :
    matmul dot_S2000x64_S64x16_S2000x16_1_0_0_1_n_n none l r (constant S2000x16 .f32 0x00000000#32) (ix2 p q)
      = ∑ κ : Fin 64, l (ix2 p κ) * r (ix2 κ q) :=
  PlainDot.matmul_zero_plain _ ⟨rfl, rfl, rfl, rfl, rfl, rfl⟩ none l r p q

/-- The two products' entries at (p, q), added, plus the bias row's entry at (0, q), the row being the same in every
    row of the 2000 x 16 block. -/
private theorem pre1_apply (a b : FVec Ideal S2000x64 .bf16) (c d : FVec Ideal S64x16 .bf16) (e : FVec Ideal S1x16 .f32)
    (p : Fin 2000) (q : Fin 16) :
    (addf (addf
        (matmul dot_S2000x64_S64x16_S2000x16_1_0_0_1_n_n none a c (constant S2000x16 .f32 0x00000000#32))
        (matmul dot_S2000x64_S64x16_S2000x16_1_0_0_1_n_n none b d (constant S2000x16 .f32 0x00000000#32)))
      (broadcastTo S2000x16 e broadcasts_S1x16_S2000x16) : FVec Ideal S2000x16 .f32) (ix2 p q)
      = (∑ κ : Fin 64, a (ix2 p κ) * c (ix2 κ q)) + (∑ κ : Fin 64, b (ix2 p κ) * d (ix2 κ q)) + e (ix2 (0 : Fin 1) q) := by
  rw [addf_apply, addf_apply, matmul16_apply, matmul16_apply, broadcastTo_1b_ab_apply]

theorem pay1_apply (x0 x1 : Vec Ideal S2000x64 .f32) (x2 x3 : Vec Ideal S64x16 .f32) (x4 : Vec Ideal S1x16 .f32)
    (p : Fin 2000) (q : Fin 16) :
    k1_pay1 (F := Ideal) x0 x1 x2 x3 x4 (ix2 p q)
      = (∑ κ : Fin 64, (x0 (ix2 p κ) : EReal) * (x2 (ix2 κ q) : EReal))
          + (∑ κ : Fin 64, (x1 (ix2 p κ) : EReal) * (x3 (ix2 κ q) : EReal)) + (x4 (ix2 (0 : Fin 1) q) : EReal) := by
  unfold k1_pay1
  -- the three reshapes are to the shape they start from
  simp only [shapeCast_self]
  rw [pre1_apply]
  -- the narrowed operands read as the operands themselves
  rfl

end Cert.Sage

end
-- ==== Proof.KBlocks1.lean ====
/-
  The second kernel region, from blocks to the whole array. Grid point t works on rows 2000 t .. 2000 t + 1999 of
  the second aggregate and of the hidden layer, with the two whole 64 x 16 weight matrices and the bias row, and writes
  those rows of the 50000 x 16 result. The 25 points cover all rows, so after the region the result array is the
  output layer of the arrays the region found, entry by entry.
-/
import proofs.«181839_j72164040507401_1_alg».proof.Proof.Gen.KernelIdeal.Frame
import proofs.«181839_j72164040507401_1_alg».proof.Proof.KBody1
import Idealize.ShloMosaic.Lib.Pipeline.Value

set_option maxRecDepth 16384

noncomputable section

open scoped BigOperators

namespace Cert.Sage

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- Every load and the store of the body start at the origin of their buffer. -/
private theorem origin1 : (![0, 0] : Fin 2 → Nat) = fun _ => 0 := funext fun a => by fin_cases a <;> rfl

/-- The block index of each window at each of the 25 grid points: the three row-tiled windows (aggregate, hidden
    layer, result) sit at block (t, 0); the weights and the bias row sit at block (0, 0). -/
private theorem tile_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the aggregate's tile at point t is row 2000 t + p of the aggregate. -/
private theorem aggregate_tile1 (c : Dev nD) (t : Fin cfg1.N) (y : S2000x64.Idx) (i : S50000x64.Idx)
    (h0 : (i 0).val = 2000 * t.val + (y 0).val) (h1 : (i 1).val = (y 1).val) :
    (iblk1 (F := Ideal) V c 0 t : Vec Ideal S2000x64 .f32) y = (V c main_v49 : S50000x64.Idx → EReal) i := by
  obtain ⟨e0, e1, -⟩ := tile_index1 t
  unfold iblk1
  rw [View.read_apply]
  show V c main_v49 _ = V c main_v49 _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 64 + 1 * (y 1).val = (i 1).val; rw [e1, h1]; omega

/-- Row p of the hidden layer's tile at point t is row 2000 t + p of the hidden layer. -/
private theorem hidden_tile1 (c : Dev nD) (t : Fin cfg1.N) (y : S2000x64.Idx) (i : S50000x64.Idx)
    (h0 : (i 0).val = 2000 * t.val + (y 0).val) (h1 : (i 1).val = (y 1).val) :
    (iblk1 (F := Ideal) V c 1 t : Vec Ideal S2000x64 .f32) y = (V c main_v27 : S50000x64.Idx → EReal) i := by
  obtain ⟨-, -, e0, e1, -⟩ := tile_index1 t
  unfold iblk1
  rw [View.read_apply]
  show V c main_v27 _ = V c main_v27 _
  congr 1
  funext a
  apply Fin.ext
  match a with
  | ⟨0, _⟩ => show win1_1.index t (0 : Fin 2) * 2000 + 1 * (y 0).val = (i 0).val; rw [e0, h0]; omega
  | ⟨1, _⟩ => show win1_1.index t (1 : Fin 2) * 64 + 1 * (y 1).val = (i 1).val; rw [e1, h1]; omega

/-- The left weights' block at every point is the whole matrix. -/
private theorem left_weights1 (c : Dev nD) (t : Fin cfg1.N) (y : S64x16.Idx) :
    (iblk1 (F := Ideal) V c 2 t : Vec Ideal S64x16 .f32) y = (V c main_arg5 : S64x16.Idx → EReal) y := by
  obtain ⟨-, -, -, -, e0, e1, -⟩ := tile_index1 t
  unfold iblk1
  rw [View.read_apply]
  show V c main_arg5 _ = V c main_arg5 _
  congr 1
  funext a
  apply Fin.ext
  match a with
  | ⟨0, _⟩ => show win1_2.index t (0 : Fin 2) * 64 + 1 * (y 0).val = (y 0).val; rw [e0]; omega
  | ⟨1, _⟩ => show win1_2.index t (1 : Fin 2) * 16 + 1 * (y 1).val = (y 1).val; rw [e1]; omega

/-- The right weights' block at every point is the whole matrix. -/
private theorem right_weights1 (c : Dev nD) (t : Fin cfg1.N) (y : S64x16.Idx) :
    (iblk1 (F := Ideal) V c 3 t : Vec Ideal S64x16 .f32) y = (V c main_arg7 : S64x16.Idx → EReal) y := by
  obtain ⟨-, -, -, -, -, -, e0, e1, -⟩ := tile_index1 t
  unfold iblk1
  rw [View.read_apply]
  show V c main_arg7 _ = V c main_arg7 _
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 16 + 1 * (y 1).val = (y 1).val; rw [e1]; omega

/-- The bias block at every point is the whole bias row. -/
private theorem bias_row1 (c : Dev nD) (t : Fin cfg1.N) (y : S1x16.Idx) :
    (iblk1 (F := Ideal) V c 4 t : Vec Ideal S1x16 .f32) y = (V c main_v50 : S1x16.Idx → EReal) y := by
  obtain ⟨-, -, -, -, -, -, -, -, e0, e1, -⟩ := tile_index1 t
  unfold iblk1
  rw [View.read_apply]
  show V c main_v50 _ = V c main_v50 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 16 + 1 * (y 1).val = (y 1).val; rw [e1]; omega

/-- One entry of a tile: when row p of the two row blocks is row r of the two arrays and the weights and bias are
    the whole arrays, the body's value at (p, q) is the output layer's entry (r, q). -/
private theorem tile_entry1 (A X : FVec Ideal ⟨2, ![50000, 64]⟩ .f32) (Wl Wr : FVec Ideal ⟨2, ![64, 16]⟩ .f32)
    (B : FVec Ideal ⟨2, ![1, 16]⟩ .f32)
    (x0 x1 : Vec Ideal S2000x64 .f32) (x2 x3 : Vec Ideal S64x16 .f32) (x4 : Vec Ideal S1x16 .f32)
    (p : Fin 2000) (q : Fin 16) (r : Fin 50000)
    (h0 : ∀ κ : Fin 64, x0 (ix2 p κ) = A (ix2 r κ)) (h1 : ∀ κ : Fin 64, x1 (ix2 p κ) = X (ix2 r κ))
    (h2 : ∀ κ : Fin 64, x2 (ix2 κ q) = Wl (ix2 κ q)) (h3 : ∀ κ : Fin 64, x3 (ix2 κ q) = Wr (ix2 κ q))
    (h4 : x4 (ix2 (0 : Fin 1) q) = B (ix2 (0 : Fin 1) q)) :
    k1_pay1 (F := Ideal) x0 x1 x2 x3 x4 (ix2 p q) = output A X Wl Wr (fun q => B (ix2 (0 : Fin 1) q)) (ix2 r q) := by
  rw [pay1_apply, output_apply]
  unfold lin
  simp only [h0, h1, h2, h3, h4]

/-- What point t writes back is rows 2000 t .. 2000 t + 1999 of the output layer of the arrays the region found. -/
private theorem flushed_tile1 (c : Dev nD) (t : Fin cfg1.N) :
    (dat1 (F := Ideal) V c).flushed 5 t
      = ((cfg1.win 5).blk t).view.read (Elt Ideal)
          (output (V c main_v49) (V c main_v27) (V c main_arg5) (V c main_arg7) (fun q => V c main_v50 (ix2 (0 : Fin 1) q))) := by
  show (cfg1.win 5).cut (grid1.coords t) ((dat1 V c).after 5 t) = _
  rw [after1_5]
  unfold out1_5
  rw [View.canon_unit_zero origin1]
  simp only [View.ld_unit_zero (S := S2000x64) origin1, View.ld_unit_zero (S := S64x16) origin1,
    View.ld_unit_zero (S := S1x16) origin1]
  obtain ⟨-, -, -, -, -, -, -, -, -, -, e0, e1⟩ := tile_index1 t
  funext j
  obtain ⟨p, q, rfl⟩ : ∃ (p : Fin 2000) (q : Fin 16), j = ix2 p q := ⟨j 0, j 1, eq_ix2 j⟩
  have hr : 2000 * t.val + p.val < 50000 := by
    have := t.isLt; have hN : cfg1.N = 25 := N_1; have := p.isLt; omega
  rw [View.read_apply]
  have hemb : ((cfg1.win 5).blk t).view.emb (ix2 p q) = ix2 (⟨2000 * t.val + p.val, hr⟩ : Fin 50000) q := by
    funext a
    apply Fin.ext
    match a with
    | ⟨0, _⟩ => show win1_5.index t (0 : Fin 2) * 2000 + 1 * p.val = 2000 * t.val + p.val; rw [e0]; omega
    | ⟨1, _⟩ => show win1_5.index t (1 : Fin 2) * 16 + 1 * q.val = q.val; rw [e1]; omega
  rw [hemb]
  exact tile_entry1 _ _ _ _ _ _ _ _ _ _ p q ⟨2000 * t.val + p.val, hr⟩
    (fun κ => aggregate_tile1 V c t (ix2 p κ) (ix2 ⟨2000 * t.val + p.val, hr⟩ κ) rfl rfl)
    (fun κ => hidden_tile1 V c t (ix2 p κ) (ix2 ⟨2000 * t.val + p.val, hr⟩ κ) rfl rfl)
    (fun κ => left_weights1 V c t (ix2 κ q))
    (fun κ => right_weights1 V c t (ix2 κ q))
    (bias_row1 V c t (ix2 (0 : Fin 1) q))

/-- An index of the result array is in point t's tile iff each coordinate is in the tile's range on its axis. -/
private theorem mem_tile1 (t : Fin cfg1.N) (i : S50000x16.Idx) :
    i ∈ ((cfg1.win 5).blk t).view.set
      ↔ ∀ a : Fin 2, win1_5.index t a * S2000x16.size a ≤ (i a).val
          ∧ (i a).val < win1_5.index t a * S2000x16.size a + S2000x16.size a := by
  show i ∈ ((View.whole main_v51).slice (win1_5.rect t)).set ↔ _
  rw [View.set_slice_whole, Rect.mem_set_unit]
  exact Iff.rfl

/-- Row r of the result lies in the tile of point r / 2000: the 25 tiles cover the 50000 rows. -/
private theorem rows_covered1 (i : S50000x16.Idx) :
    ∃ t : Fin cfg1.N, (cfg1.win 5).flush t = true ∧ i ∈ ((cfg1.win 5).blk t).view.set := by
  have hi0 : (i 0).val < 50000 := (i 0).isLt
  have hi1 : (i 1).val < 16 := (i 1).isLt
  have hN : cfg1.N = 25 := N_1
  have ht : (i 0).val / 2000 < cfg1.N := by rw [hN]; omega
  obtain ⟨-, -, -, -, -, -, -, -, -, -, e0, e1⟩ := tile_index1 ⟨(i 0).val / 2000, ht⟩
  refine ⟨⟨(i 0).val / 2000, ht⟩, flush1_5 _, ?_⟩
  rw [mem_tile1]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ (1 : Fin 2) * 16 ≤ (i 1).val
      ∧ (i 1).val < win1_5.index ⟨(i 0).val / 2000, ht⟩ (1 : Fin 2) * 16 + 16
    rw [e1]
    omega

theorem arr1 (c : Dev nD) :
    (dat1 (F := Ideal) V c).arrAt 5 cfg1.N
      = output (V c main_v49) (V c main_v27) (V c main_arg5) (V c main_arg7) (fun q => V c main_v50 (ix2 (0 : Fin 1) q)) :=
  (dat1 (F := Ideal) V c).arrAt_eq_of_cover 5
    (output (V c main_v49) (V c main_v27) (V c main_arg5) (V c main_arg7) (fun q => V c main_v50 (ix2 (0 : Fin 1) q)))
    (fun t _ => flushed_tile1 V c t) rows_covered1

end Cert.Sage

end
-- ==== Proof.Net.lean ====
/-
  The whole network as one function of the eight arguments: the hidden layer of the neighbourhood average of the node
  features and the features themselves, then the output layer of the neighbourhood average of the hidden layer and the
  hidden layer itself, both averages taken along the same edges. The biases enter by their entry at the column.
-/
import proofs.«181839_j72164040507401_1_alg».proof.Proof.Sage
import proofs.«181839_j72164040507401_1_alg».proof.Proof.Agg

noncomputable section

namespace Cert.Sage

open Idealize.ShloMosaic Idealize.ShloMosaic.ValueIdx Cert.KernelIdeal

/-- The hidden layer of the network, from the arguments. -/
def net1 (X : FVec Ideal S50000x64 .f32) (E : IVec S2x800000 32) (W1l : FVec Ideal S64x64 .f32) (b1 : FVec Ideal S64 .f32)
    (W1r : FVec Ideal S64x64 .f32) : FVec Ideal S50000x64 .f32 :=
  hidden (aggregate (F := Ideal) X (srcOf E) (dstOf E)) X W1l W1r (fun q => b1 (ix1 q))

/-- The network's result, from the arguments. -/
def net (X : FVec Ideal S50000x64 .f32) (E : IVec S2x800000 32) (W1l : FVec Ideal S64x64 .f32) (b1 : FVec Ideal S64 .f32)
    (W1r : FVec Ideal S64x64 .f32) (W2l : FVec Ideal S64x16 .f32) (b2 : FVec Ideal S16 .f32) (W2r : FVec Ideal S64x16 .f32) :
    FVec Ideal S50000x16 .f32 :=
  output (aggregate (F := Ideal) (net1 X E W1l b1 W1r) (srcOf E) (dstOf E)) (net1 X E W1l b1 W1r) W2l W2r (fun q => b2 (ix1 q))

end Cert.Sage

end
-- ==== Proof.KValue.lean ====
/-
  The idealized kernel program's result. Its run ends with the result array at what the second region's write-backs
  leave; that is the output layer of what the second region found; what it found is the neighbourhood average of the
  first region's result, that result itself, and the second layer's weights and bias; and the first region's result is
  the hidden layer of what the first region found: the neighbourhood average of the node features, the features, and
  the first layer's weights and bias. A bias laid out as a 1 x D row is read at (0, q) as the bias at q.
-/
import proofs.«181839_j72164040507401_1_alg».proof.Proof.KRun
import proofs.«181839_j72164040507401_1_alg».proof.Proof.KHost
import proofs.«181839_j72164040507401_1_alg».proof.Proof.KBlocks0
import proofs.«181839_j72164040507401_1_alg».proof.Proof.KBlocks1
import proofs.«181839_j72164040507401_1_alg».proof.Proof.Net
import Idealize.ShloMosaic.Lib.Pipeline.Value
import Idealize.ShloMosaic.Lib.ValueLayout

set_option maxRecDepth 16384

noncomputable section

namespace Cert.Sage

open Idealize.ShloMosaic Idealize.ShloMosaic.TcCoe Idealize.ShloMosaic.ValueIdx Idealize.SL.Sem Cert.KernelIdeal Cert.KernelIdeal.Gen

/-- A vector of length n laid out as a 1 x n row, read at (0, q), is the vector at q. -/
theorem row_apply {n : Nat} (b : FVec Ideal ⟨1, ![n]⟩ .f32) (h : (⟨1, ![n]⟩ : Shape).ShapeCasts ⟨2, ![1, n]⟩) (q : Fin n) :
    shapeCast ⟨2, ![1, n]⟩ b h (ix2 (0 : Fin 1) q) = b (ix1 q) := by
  refine (shapeCast_addUnit_apply ![n] b h (ix2 (0 : Fin 1) q)).trans ?_
  congr 1
  funext a
  match a with
  | ⟨0, _⟩ => rfl

variable (m : (ℓ : Loc nD τ sig) → Buf (Elt Ideal) ℓ) (ρ : Dev nD → PrngReg)

/-- After the first region its result array is the network's hidden layer. -/
theorem hidden_arr (c : Dev nD) :
    (dat0 (F := Ideal) (V3 m ρ) c).arrAt 5 cfg0.N
      = net1 (m ((c : Thread nD τ).loc main_arg0)) (m ((c : Thread nD τ).loc main_arg1)) (m ((c : Thread nD τ).loc main_arg2))
          (m ((c : Thread nD τ).loc main_arg3)) (m ((c : Thread nD τ).loc main_arg4)) := by
  rw [arr0 (V3 m ρ) c, V3_v25, V3_arg0, V3_arg2, V3_arg4, V3_v26]
  unfold net1
  congr 1
  funext q
  exact row_apply _ _ q

/-- At the end of the run the result array is the network's result. -/
theorem out_arr (c : Dev nD) :
    W8 m ρ c (Proc.devRef .tc main_v51)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W8_arr m ρ c 5).trans ?_
  rw [arr1 (V7 m ρ) c, V7_v49, V7_v27, V7_arg5, V7_arg7, V7_v50, hidden_arr]
  unfold net
  congr 1
  funext q
  exact row_apply _ _ q

/-- Every weakly fair execution of the idealized kernel program terminates with the result array at the network's
    result of the launch arguments, the arguments unchanged. -/
theorem kernel_run : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v51)
        = net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.KernelIdeal.defs (F := Ideal)) _ _).mono (fun r h c => ⟨(h c).1.trans (out_arr m ρ c), (h c).2⟩)
    (Cert.KernelIdeal.Run.run_named (F := Ideal) m ρ)

end Cert.Sage

end
-- ==== Proof.RRun.lean ====
/-
  The reference program as one straight line of host operations, and its run.

  The reference's entry function calls four small functions (a selection against a broadcast scalar, twice in two
  forms, a plain selection, and the exponential linear unit, which itself calls two of them). Written out at their call
  sites, over each call's own buffers, the whole program is one list of operations run in order; every weakly fair
  execution then terminates with each buffer at the fold of the operations' results over the launch contents.
-/
import proofs.«181839_j72164040507401_1_alg».proof.ReferenceIdeal
import proofs.«181839_j72164040507401_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the calls written out at their call sites. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    unary main_v17 main_v18 (broadcastInDim S50000x1 ![0] bcast_S50000_S50000x1_0 : (⟨S50000, .f32⟩ : BufTy).Contents (Elt F) → (⟨S50000x1, .f32⟩ : BufTy).Contents (Elt F)),
    nullary main_cst_3 (constant S_ .f32 0x00000000#32),
    unary main_cst_3 main_v19 (broadcastInDim S50000x1 ![] bcast_S_S50000x1 : (⟨S_, .f32⟩ : BufTy).Contents (Elt F) → (⟨S50000x1, .f32⟩ : BufTy).Contents (Elt F)),
    binary main_v18 main_v19 main_v20 (cmpf .ogt : (⟨S50000x1, .f32⟩ : BufTy).Contents (Elt F) → (⟨S50000x1, .f32⟩ : BufTy).Contents (Elt F) → (⟨S50000x1, .i1⟩ : BufTy).Contents (Elt F)),
    nullary main_cst_4 (constant S_ .f32 0x3F800000#32),
    unary main_cst_4 main_v21 (broadcastInDim S50000x1 ![] bcast_S_S50000x1 : (⟨S_, .f32⟩ : BufTy).Contents (Elt F) → (⟨S50000x1, .f32⟩ : BufTy).Contents (Elt F)),
    binary main_v18 main_v21 main_v22 (maximumf : (⟨S50000x1, .f32⟩ : BufTy).Contents (Elt F) → (⟨S50000x1, .f32⟩ : BufTy).Contents (Elt F) → (⟨S50000x1, .f32⟩ : BufTy).Contents (Elt F)),
    unary main_v22 main_v23 (broadcastInDim S50000x64 ![0, 1] bcast_S50000x1_S50000x64_0_1 : (⟨S50000x1, .f32⟩ : BufTy).Contents (Elt F) → (⟨S50000x64, .f32⟩ : BufTy).Contents (Elt F)),
    binary main_v13 main_v23 main_v24 (Host.divf : (⟨S50000x64, .f32⟩ : BufTy).Contents (Elt F) → (⟨S50000x64, .f32⟩ : BufTy).Contents (Elt F) → (⟨S50000x64, .f32⟩ : BufTy).Contents (Elt F)),
    nullary main_cst_5 (constant S_ .f32 0x00000000#32),
    TRef.unary (.of main_cst_5 : TRef sig ⟨S_, .f32⟩) main_call0.v0 id,
    TRef.unary (.of main_v20 : TRef sig ⟨S50000x1, .i1⟩) main_call0.v1 (broadcastInDim S50000x64 ![0, 1] bcast_S50000x1_S50000x64_0_1),
    TRef.unary main_call0.v0 main_call0.v2 (broadcastInDim S50000x64 ![] bcast_S_S50000x64),
    TRef.ternary main_call0.v1 (.of main_v24 : TRef sig ⟨S50000x64, .f32⟩) main_call0.v2 main_call0.v3 select,
    binary main_v25 main_arg2 main_v26 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg3 main_v27 (broadcastInDim S1x64 ![1] bcast_S64_S1x64_1 : (⟨S64, .f32⟩ : BufTy).Contents (Elt F) → (⟨S1x64, .f32⟩ : BufTy).Contents (Elt F)),
    unary main_v27 main_v28 (broadcastInDim S50000x64 ![0, 1] bcast_S1x64_S50000x64_0_1 : (⟨S1x64, .f32⟩ : BufTy).Contents (Elt F) → (⟨S50000x64, .f32⟩ : BufTy).Contents (Elt F)),
    binary main_v26 main_v28 main_v29 (addf : (⟨S50000x64, .f32⟩ : BufTy).Contents (Elt F) → (⟨S50000x64, .f32⟩ : BufTy).Contents (Elt F) → (⟨S50000x64, .f32⟩ : BufTy).Contents (Elt F)),
    binary main_arg0 main_arg4 main_v30 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v29 main_v30 main_v31 (addf : (⟨S50000x64, .f32⟩ : BufTy).Contents (Elt F) → (⟨S50000x64, .f32⟩ : BufTy).Contents (Elt F) → (⟨S50000x64, .f32⟩ : BufTy).Contents (Elt F)),
    TRef.nullary main_call1.cst (constant S_ .f32 0x00000000#32),
    TRef.unary main_call1.cst main_call1.v0 (broadcastInDim S50000x64 ![] bcast_S_S50000x64),
    TRef.binary (.of main_v31 : TRef sig ⟨S50000x64, .f32⟩) main_call1.v0 main_call1.v1 (cmpf .ogt),
    TRef.nullary main_call1.cst_0 (constant S_ .f32 0x00000000#32),
    TRef.unary main_call1.cst_0 main_call1.v2 (broadcastInDim S50000x64 ![] bcast_S_S50000x64),
    TRef.binary (.of main_v31 : TRef sig ⟨S50000x64, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x64 ![] bcast_S_S50000x64),
    TRef.ternary main_call1.v3 main_call1.call0.v1 (.of main_v31 : TRef sig ⟨S50000x64, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x64 ![] bcast_S_S50000x64),
    TRef.binary main_call1.v6 main_call1.v5 main_call1.v7 mulf,
    TRef.ternary main_call1.v1 (.of main_v31 : TRef sig ⟨S50000x64, .f32⟩) main_call1.v7 main_call1.call1.v0 select,
    unary main_arg1 main_v33 ((extractStridedSlice S1x800000 ![0, 0] · slices_S2x800000_S1x800000_0_0) : (⟨S2x800000, .i32⟩ : BufTy).Contents (Elt F) → (⟨S1x800000, .i32⟩ : BufTy).Contents (Elt F)),
    reshape main_v33 main_v34 rfl shapeCasts_S1x800000_S800000,
    unary main_arg1 main_v35 ((extractStridedSlice S1x800000 ![1, 0] · slices_S2x800000_S1x800000_1_0) : (⟨S2x800000, .i32⟩ : BufTy).Contents (Elt F) → (⟨S1x800000, .i32⟩ : BufTy).Contents (Elt F)),
    reshape main_v35 main_v36 rfl shapeCasts_S1x800000_S800000,
    nullary main_c_6 (constantI S_ 32 0#32),
    unary main_c_6 main_v37 (broadcastInDim S800000 ![] bcast_S_S800000 : (⟨S_, .i32⟩ : BufTy).Contents (Elt F) → (⟨S800000, .i32⟩ : BufTy).Contents (Elt F)),
    binary main_v34 main_v37 main_v38 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v39 (broadcastInDim S800000 ![] bcast_S_S800000 : (⟨S_, .i32⟩ : BufTy).Contents (Elt F) → (⟨S800000, .i32⟩ : BufTy).Contents (Elt F)),
    binary main_v34 main_v39 main_v40 (addi : (⟨S800000, .i32⟩ : BufTy).Contents (Elt F) → (⟨S800000, .i32⟩ : BufTy).Contents (Elt F) → (⟨S800000, .i32⟩ : BufTy).Contents (Elt F)),
    ternary main_v38 main_v40 main_v34 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v41 main_v42 (broadcastInDim S800000x1 ![0] bcast_S800000_S800000x1_0 : (⟨S800000, .i32⟩ : BufTy).Contents (Elt F) → (⟨S800000x1, .i32⟩ : BufTy).Contents (Elt F)),
    binary main_v32 main_v42 main_v43 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_8 (constant S_ .f32 0x00000000#32),
    unary main_cst_8 main_v44 (broadcastInDim S50000x64 ![] bcast_S_S50000x64 : (⟨S_, .f32⟩ : BufTy).Contents (Elt F) → (⟨S50000x64, .f32⟩ : BufTy).Contents (Elt F)),
    unary main_v36 main_v45 (broadcastInDim S800000x1 ![0] bcast_S800000_S800000x1_0 : (⟨S800000, .i32⟩ : BufTy).Contents (Elt F) → (⟨S800000x1, .i32⟩ : BufTy).Contents (Elt F)),
    ternary main_v44 main_v45 main_v43 main_v46 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_9 (constant S_ .f32 0x3F800000#32),
    unary main_cst_9 main_v47 (broadcastInDim S800000 ![] bcast_S_S800000 : (⟨S_, .f32⟩ : BufTy).Contents (Elt F) → (⟨S800000, .f32⟩ : BufTy).Contents (Elt F)),
    nullary main_cst_10 (constant S_ .f32 0x00000000#32),
    unary main_cst_10 main_v48 (broadcastInDim S50000 ![] bcast_S_S50000 : (⟨S_, .f32⟩ : BufTy).Contents (Elt F) → (⟨S50000, .f32⟩ : BufTy).Contents (Elt F)),
    unary main_v36 main_v49 (broadcastInDim S800000x1 ![0] bcast_S800000_S800000x1_0 : (⟨S800000, .i32⟩ : BufTy).Contents (Elt F) → (⟨S800000x1, .i32⟩ : BufTy).Contents (Elt F)),
    ternary main_v48 main_v49 main_v47 main_v50 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    nullary main_cst_11 (constant S_ .f32 0x00000000#32),
    unary main_cst_11 main_v52 (broadcastInDim S50000x1 ![] bcast_S_S50000x1 : (⟨S_, .f32⟩ : BufTy).Contents (Elt F) → (⟨S50000x1, .f32⟩ : BufTy).Contents (Elt F)),
    binary main_v51 main_v52 main_v53 (cmpf .ogt : (⟨S50000x1, .f32⟩ : BufTy).Contents (Elt F) → (⟨S50000x1, .f32⟩ : BufTy).Contents (Elt F) → (⟨S50000x1, .i1⟩ : BufTy).Contents (Elt F)),
    nullary main_cst_12 (constant S_ .f32 0x3F800000#32),
    unary main_cst_12 main_v54 (broadcastInDim S50000x1 ![] bcast_S_S50000x1 : (⟨S_, .f32⟩ : BufTy).Contents (Elt F) → (⟨S50000x1, .f32⟩ : BufTy).Contents (Elt F)),
    binary main_v51 main_v54 main_v55 (maximumf : (⟨S50000x1, .f32⟩ : BufTy).Contents (Elt F) → (⟨S50000x1, .f32⟩ : BufTy).Contents (Elt F) → (⟨S50000x1, .f32⟩ : BufTy).Contents (Elt F)),
    unary main_v55 main_v56 (broadcastInDim S50000x64 ![0, 1] bcast_S50000x1_S50000x64_0_1 : (⟨S50000x1, .f32⟩ : BufTy).Contents (Elt F) → (⟨S50000x64, .f32⟩ : BufTy).Contents (Elt F)),
    binary main_v46 main_v56 main_v57 (Host.divf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x00000000#32),
    TRef.unary (.of main_cst_13 : TRef sig ⟨S_, .f32⟩) main_call2.v0 id,
    TRef.unary (.of main_v53 : TRef sig ⟨S50000x1, .i1⟩) main_call2.v1 (broadcastInDim S50000x64 ![0, 1] bcast_S50000x1_S50000x64_0_1),
    TRef.unary main_call2.v0 main_call2.v2 (broadcastInDim S50000x64 ![] bcast_S_S50000x64),
    TRef.ternary main_call2.v1 (.of main_v57 : TRef sig ⟨S50000x64, .f32⟩) main_call2.v2 main_call2.v3 select,
    binary main_v58 main_arg5 main_v59 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)),
    unary main_arg6 main_v60 (broadcastInDim S1x16 ![1] bcast_S16_S1x16_1 : (⟨S16, .f32⟩ : BufTy).Contents (Elt F) → (⟨S1x16, .f32⟩ : BufTy).Contents (Elt F)),
    unary main_v60 main_v61 (broadcastInDim S50000x16 ![0, 1] bcast_S1x16_S50000x16_0_1 : (⟨S1x16, .f32⟩ : BufTy).Contents (Elt F) → (⟨S50000x16, .f32⟩ : BufTy).Contents (Elt F)),
    binary main_v59 main_v61 main_v62 (addf : (⟨S50000x16, .f32⟩ : BufTy).Contents (Elt F) → (⟨S50000x16, .f32⟩ : BufTy).Contents (Elt F) → (⟨S50000x16, .f32⟩ : BufTy).Contents (Elt F)),
    binary main_v32 main_arg7 main_v63 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)),
    binary main_v62 main_v63 main_v64 (addf : (⟨S50000x16, .f32⟩ : BufTy).Contents (Elt F) → (⟨S50000x16, .f32⟩ : BufTy).Contents (Elt F) → (⟨S50000x16, .f32⟩ : BufTy).Contents (Elt F)) ]

set_option maxRecDepth 8192 in
set_option maxHeartbeats 4000000 in
/-- The entry function is that straight line: with the functions' definitions unfolded at their calls and the records
    at their fields, both sides are one chain of steps once sequencing is reassociated. -/
theorem main_eq (c : Dev nD) : main (F := F) c = seq ops := by
  simp only [main, main_part0, main_part1, fn_where.body, fn_where_0.body, fn_where_1.body, fn_elu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., unary_bufs_sub .., ternary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., unary_bufs_sub .., ternary_bufs_sub .., binary_bufs_sub .., unary_bufs_sub .., unary_bufs_sub .., binary_bufs_sub .., binary_bufs_sub .., binary_bufs_sub ..⟩

/-- From any memory with zero counters every weakly fair execution of the entry function on the TensorCores terminates,
    and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RDense.lean ====
/-
  The reference's two dense stages read at an index. Each is (A times Wl) + the bias broadcast over the rows, then
  + (X times Wr); the first is followed by the exponential linear unit in the form
  where(z > 0, z, 1 * expm1(where(z > 0, 0, z))). Addition of extended reals is commutative and associative, expm1 is
  exp - 1 and the inner selection returns z wherever the outer one looks at it, so entry by entry these are the hidden
  and the output layer.
-/
import proofs.«181839_j72164040507401_1_alg».proof.ReferenceIdeal
import proofs.«181839_j72164040507401_1_alg».proof.Proof.Gen.ReferenceIdeal
import proofs.«181839_j72164040507401_1_alg».proof.Proof.Sage
import Idealize.ShloMosaic.Lib.Pipeline.Value

noncomputable section

open scoped BigOperators

namespace Cert.Sage

open Idealize.ShloMosaic Idealize.ShloMosaic.ValueIdx Cert.ReferenceIdeal Cert.ReferenceIdeal.Gen

/-- The reference's first dense stage before the activation, as whole-array operations. -/
def refLin1 (A X : FVec Ideal S50000x64 .f32) (Wl : FVec Ideal S64x64 .f32) (b : FVec Ideal S64 .f32) (Wr : FVec Ideal S64x64 .f32) :
    FVec Ideal S50000x64 .f32 :=
  addf (addf (Host.dotGeneral dot_S50000x64_S64x64_S50000x64_1_0_0_1_n_n none A Wl)
      (broadcastInDim S50000x64 ![0, 1] bcast_S1x64_S50000x64_0_1 (broadcastInDim S1x64 ![1] bcast_S64_S1x64_1 b)))
    (Host.dotGeneral dot_S50000x64_S64x64_S50000x64_1_0_0_1_n_n none X Wr)

/-- The reference's exponential linear unit, as whole-array operations. -/
def refElu (z : FVec Ideal S50000x64 .f32) : FVec Ideal S50000x64 .f32 :=
  select (cmpf .ogt z (broadcastInDim S50000x64 ![] bcast_S_S50000x64 (constant S_ .f32 0x00000000#32))) z
    (mulf (broadcastInDim S50000x64 ![] bcast_S_S50000x64 (constant S_ .f32 0x3F800000#32))
      (Host.expm1 (select (cmpf .ogt z (broadcastInDim S50000x64 ![] bcast_S_S50000x64 (constant S_ .f32 0x00000000#32)))
        (broadcastInDim S50000x64 ![] bcast_S_S50000x64 (id (constant S_ .f32 0x00000000#32))) z)))

/-- The reference's second dense stage, as whole-array operations. -/
def refLin2 (A X : FVec Ideal S50000x64 .f32) (Wl : FVec Ideal S64x16 .f32) (b : FVec Ideal S16 .f32) (Wr : FVec Ideal S64x16 .f32) :
    FVec Ideal S50000x16 .f32 :=
  addf (addf (Host.dotGeneral dot_S50000x64_S64x16_S50000x16_1_0_0_1_n_n none A Wl)
      (broadcastInDim S50000x16 ![0, 1] bcast_S1x16_S50000x16_0_1 (broadcastInDim S1x16 ![1] bcast_S16_S1x16_1 b)))
    (Host.dotGeneral dot_S50000x64_S64x16_S50000x16_1_0_0_1_n_n none X Wr)

/-- The float one is the extended real 1. -/
private theorem ofBits_one_f32 : Ideal.ofBits .f32 0x3F800000#32 = 1 := by
  simp [Ideal.ofBits, Ideal.ieee]
  rw [← EReal.coe_mul]
  norm_num

/-- A scalar spread over the 50000 x 64 array reads the scalar at every entry. -/
private theorem scalar64_apply (x : FVec Ideal S_ .f32) (p : Fin 50000) (q : Fin 64) :
    broadcastInDim S50000x64 ![] bcast_S_S50000x64 x (ix2 p q) = x ix0 :=
  broadcastInDim_apply _ _ x (ix2 p q) ix0 (fun a => a.elim0)

/-- The bias of length 64, made a row and spread over the 50000 rows, reads b(q) at (p, q). -/
private theorem bias64_apply (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) := by
  refine (broadcastInDim_apply _ _ _ (ix2 p q) (ix2 (0 : Fin 1) q) ?_).trans ?_
  · intro a
    match a with
    | ⟨0, _⟩ => rfl
    | ⟨1, _⟩ => rfl
  · refine broadcastInDim_apply _ _ b (ix2 (0 : Fin 1) q) (ix1 q) ?_
    intro a
    match a with
    | ⟨0, _⟩ => rfl

/-- The bias of length 16, made a row and spread over the 50000 rows, reads b(q) at (p, q). -/
private theorem bias16_apply (b : FVec Ideal S16 .f32) (p : Fin 50000) (q : Fin 16) :
    broadcastInDim S50000x16 ![0, 1] bcast_S1x16_S50000x16_0_1 (broadcastInDim S1x16 ![1] bcast_S16_S1x16_1 b) (ix2 p q)
      = b (ix1 q) := by
  refine (broadcastInDim_apply _ _ _ (ix2 p q) (ix2 (0 : Fin 1) q) ?_).trans ?_
  · intro a
    match a with
    | ⟨0, _⟩ => rfl
    | ⟨1, _⟩ => rfl
  · refine broadcastInDim_apply _ _ b (ix2 (0 : Fin 1) q) (ix1 q) ?_
    intro a
    match a with
    | ⟨0, _⟩ => rfl

/-- The first dense stage before the activation at (p, q): the bias is added between the two products there, last in
    the index-by-index form; the two sums agree because addition is commutative and associative. -/
private theorem refLin1_apply (A X : FVec Ideal S50000x64 .f32) (Wl : FVec Ideal S64x64 .f32) (b : FVec Ideal S64 .f32)
    (Wr : FVec Ideal S64x64 .f32) (p : Fin 50000) (q : Fin 64) :
    refLin1 A X Wl b Wr (ix2 p q) = lin A X Wl Wr (fun q => b (ix1 q)) p q := by
  unfold refLin1 lin
  rw [addf_apply, addf_apply, bias64_apply]
  simp only [Host.dotGeneral]
  rw [PlainDot.dotGeneral_plain _ ⟨rfl, rfl, rfl, rfl, rfl, rfl⟩, PlainDot.dotGeneral_plain _ ⟨rfl, rfl, rfl, rfl, rfl, rfl⟩]
  exact add_right_comm _ _ _

/-- The second dense stage at (p, q). -/
private theorem refLin2_apply (A X : FVec Ideal S50000x64 .f32) (Wl : FVec Ideal S64x16 .f32) (b : FVec Ideal S16 .f32)
    (Wr : FVec Ideal S64x16 .f32) (p : Fin 50000) (q : Fin 16) :
    refLin2 A X Wl b Wr (ix2 p q) = lin A X Wl Wr (fun q => b (ix1 q)) p q := by
  unfold refLin2 lin
  rw [addf_apply, addf_apply, bias16_apply]
  simp only [Host.dotGeneral]
  rw [PlainDot.dotGeneral_plain _ ⟨rfl, rfl, rfl, rfl, rfl, rfl⟩, PlainDot.dotGeneral_plain _ ⟨rfl, rfl, rfl, rfl, rfl, rfl⟩]
  exact add_right_comm _ _ _

/-- The exponential linear unit in the reference's form, on one extended real: where z is positive both selections
    return z; elsewhere the inner selection returns z, expm1 is exp - 1 and the factor is 1. -/
private theorem elu_ref (z : EReal) :
    Scalar.select (FloatOps.cmpf (F := Ideal) (φ := .f32) .ogt z (Ideal.ofBits .f32 0x00000000#32)) z
      (Ideal.ofBits .f32 0x3F800000#32 *
        (Ideal.exp (Scalar.select (FloatOps.cmpf (F := Ideal) (φ := .f32) .ogt z (Ideal.ofBits .f32 0x00000000#32))
          (Ideal.ofBits .f32 0x00000000#32) z) - 1)) = elu z := by
  unfold elu
  by_cases h : FloatOps.cmpf (F := Ideal) (φ := .f32) .ogt z (Ideal.ofBits .f32 0x00000000#32) = 1#1
  · rw [h, select_one, select_one]
  · rw [eq_zero_of_ne_one h, select_zero, select_zero, select_zero, ofBits_one_f32, one_mul]

/-- The reference's exponential linear unit read at (p, q). -/
private theorem refElu_apply (z : FVec Ideal S50000x64 .f32) (p : Fin 50000) (q : Fin 64) :
    refElu z (ix2 p q) = elu (z (ix2 p q)) := by
  unfold refElu
  rw [select_apply, cmpf_apply, mulf_apply, scalar64_apply, scalar64_apply]
  show Scalar.select _ _ (_ * (FloatOps.hostUnary .expm1 _)) = _
  rw [Ideal.hostUnary_expm1_def, select_apply, cmpf_apply, scalar64_apply, scalar64_apply]
  exact elu_ref (z (ix2 p q))

theorem refLayer1_eq (A X : FVec Ideal S50000x64 .f32) (Wl : FVec Ideal S64x64 .f32) (b : FVec Ideal S64 .f32) (Wr : FVec Ideal S64x64 .f32) :
    refElu (refLin1 A X Wl b Wr) = hidden A X Wl Wr (fun q => b (ix1 q)) := by
  funext i
  obtain ⟨p, q, rfl⟩ : ∃ (p : Fin 50000) (q : Fin 64), i = ix2 p q := ⟨i 0, i 1, eq_ix2 i⟩
  rw [hidden_apply, refElu_apply, refLin1_apply]

theorem refLayer2_eq (A X : FVec Ideal S50000x64 .f32) (Wl : FVec Ideal S64x16 .f32) (b : FVec Ideal S16 .f32) (Wr : FVec Ideal S64x16 .f32) :
    refLin2 A X Wl b Wr = output A X Wl Wr (fun q => b (ix1 q)) := by
  funext i
  obtain ⟨p, q, rfl⟩ : ∃ (p : Fin 50000) (q : Fin 16), i = ix2 p q := ⟨i 0, i 1, eq_ix2 i⟩
  rw [output_apply, refLin2_apply]

end Cert.Sage

end
-- ==== Proof.RValue.lean ====
/-
  The reference's result as a function of its arguments. Read back through the list of operations, the result buffer
  holds: the second dense stage applied to the neighbourhood average of the hidden layer and to the hidden layer, where
  the hidden layer is the exponential linear unit of the first dense stage applied to the neighbourhood average of the
  node features and to the node features. The endpoint lists are cut from the edge list twice, by the same two
  operations; the neighbourhood average is the same chain of host operations both times. No operation writes an
  argument.
-/
import proofs.«181839_j72164040507401_1_alg».proof.Proof.RRun
import proofs.«181839_j72164040507401_1_alg».proof.Proof.RDense
import proofs.«181839_j72164040507401_1_alg».proof.Proof.Agg

set_option maxRecDepth 16384

noncomputable section

namespace Cert.Sage

open Idealize.ShloMosaic Idealize.ShloMosaic.TcCoe Idealize.ShloMosaic.StableHlo Idealize.SL.Sem Cert.ReferenceIdeal Cert.ReferenceIdeal.Gen

/-- The reference's hidden layer, as whole-array operations of the arguments. -/
def refHidden (X : FVec Ideal Cert.ReferenceIdeal.S50000x64 .f32) (E : IVec Cert.ReferenceIdeal.S2x800000 32)
    (W1l : FVec Ideal Cert.ReferenceIdeal.S64x64 .f32) (b1 : FVec Ideal Cert.ReferenceIdeal.S64 .f32) (W1r : FVec Ideal Cert.ReferenceIdeal.S64x64 .f32) :
    FVec Ideal Cert.ReferenceIdeal.S50000x64 .f32 :=
  refElu (refLin1 (aggregate (F := Ideal) X (srcOf E) (dstOf E)) X W1l b1 W1r)

/-! ## The same stages over any float values

The fold is read back for float values left abstract, where no operation can be opened: the result is then the
composition below as a matter of which operation feeds which. At the extended reals these are the reference's stages. -/

/-- The first dense stage before the activation, as whole-array operations, over any float values. -/
private def gLin1 {F : FTy → Type} [FloatOps F] (A X : FVec F S50000x64 .f32) (Wl : FVec F S64x64 .f32) (b : FVec F S64 .f32)
    (Wr : FVec F S64x64 .f32) : FVec F S50000x64 .f32 :=
  addf (addf (Host.dotGeneral dot_S50000x64_S64x64_S50000x64_1_0_0_1_n_n none A Wl)
      (broadcastInDim S50000x64 ![0, 1] bcast_S1x64_S50000x64_0_1 (broadcastInDim S1x64 ![1] bcast_S64_S1x64_1 b)))
    (Host.dotGeneral dot_S50000x64_S64x64_S50000x64_1_0_0_1_n_n none X Wr)

/-- The exponential linear unit, as whole-array operations, over any float values. -/
private def gElu {F : FTy → Type} [FloatOps F] (z : FVec F S50000x64 .f32) : FVec F S50000x64 .f32 :=
  select (cmpf .ogt z (broadcastInDim S50000x64 ![] bcast_S_S50000x64 (constant S_ .f32 0x00000000#32))) z
    (mulf (broadcastInDim S50000x64 ![] bcast_S_S50000x64 (constant S_ .f32 0x3F800000#32))
      (Host.expm1 (select (cmpf .ogt z (broadcastInDim S50000x64 ![] bcast_S_S50000x64 (constant S_ .f32 0x00000000#32)))
        (broadcastInDim S50000x64 ![] bcast_S_S50000x64 (id (constant S_ .f32 0x00000000#32))) z)))

/-- The second dense stage, as whole-array operations, over any float values. -/
private def gLin2 {F : FTy → Type} [FloatOps F] (A X : FVec F S50000x64 .f32) (Wl : FVec F S64x16 .f32) (b : FVec F S16 .f32)
    (Wr : FVec F S64x16 .f32) : FVec F S50000x16 .f32 :=
  addf (addf (Host.dotGeneral dot_S50000x64_S64x16_S50000x16_1_0_0_1_n_n none A Wl)
      (broadcastInDim S50000x16 ![0, 1] bcast_S1x16_S50000x16_0_1 (broadcastInDim S1x16 ![1] bcast_S16_S1x16_1 b)))
    (Host.dotGeneral dot_S50000x64_S64x16_S50000x16_1_0_0_1_n_n none X Wr)

/-- The hidden layer, over any float values. -/
private def gHidden {F : FTy → Type} [FloatOps F] (X : FVec F S50000x64 .f32) (E : IVec S2x800000 32)
    (W1l : FVec F S64x64 .f32) (b1 : FVec F S64 .f32) (W1r : FVec F S64x64 .f32) : FVec F S50000x64 .f32 :=
  gElu (gLin1 (aggregate (F := F) X (srcOf E) (dstOf E)) X W1l b1 W1r)

private theorem refLin1_g (A X : FVec Ideal S50000x64 .f32) (Wl : FVec Ideal S64x64 .f32) (b : FVec Ideal S64 .f32) (Wr : FVec Ideal S64x64 .f32) :
    refLin1 A X Wl b Wr = gLin1 (F := Ideal) A X Wl b Wr := rfl

private theorem refElu_g (z : FVec Ideal S50000x64 .f32) : refElu z = gElu (F := Ideal) z := rfl

private theorem refLin2_g (A X : FVec Ideal S50000x64 .f32) (Wl : FVec Ideal S64x16 .f32) (b : FVec Ideal S16 .f32) (Wr : FVec Ideal S64x16 .f32) :
    refLin2 A X Wl b Wr = gLin2 (F := Ideal) A X Wl b Wr := rfl

private theorem refHidden_g (X : FVec Ideal S50000x64 .f32) (E : IVec S2x800000 32)
    (W1l : FVec Ideal S64x64 .f32) (b1 : FVec Ideal S64 .f32) (W1r : FVec Ideal S64x64 .f32) :
    refHidden X E W1l b1 W1r = gHidden (F := Ideal) X E W1l b1 W1r := by
  unfold refHidden gHidden
  rw [refLin1_g, refElu_g]

set_option maxHeartbeats 4000000 in
/-- The result buffer after the operations, over any float values and from any contents: the selections' results are
    the buffers the calls name, and each operation's operands are what the operations before it left. -/
private theorem ref_out_gen {F : FTy → Type} [FloatOps F] (V : Valuation τ sig (Elt F)) :
    after (Cert.ReferenceIdeal.Run.ops (F := F)) V (Proc.devRef .tc main_v64)
      = gLin2
          (aggregate (F := F) (gHidden (V (Proc.devRef .tc main_arg0)) (V (Proc.devRef .tc main_arg1)) (V (Proc.devRef .tc main_arg2)) (V (Proc.devRef .tc main_arg3)) (V (Proc.devRef .tc main_arg4))) (srcOf (V (Proc.devRef .tc main_arg1))) (dstOf (V (Proc.devRef .tc main_arg1))))
          (gHidden (V (Proc.devRef .tc main_arg0)) (V (Proc.devRef .tc main_arg1)) (V (Proc.devRef .tc main_arg2)) (V (Proc.devRef .tc main_arg3)) (V (Proc.devRef .tc main_arg4)))
          (V (Proc.devRef .tc main_arg5)) (V (Proc.devRef .tc main_arg6)) (V (Proc.devRef .tc main_arg7)) := by
  after_results_simp
  rfl

/-- The result buffer after the reference's operations, from any contents. -/
theorem ref_out (V : Valuation τ sig (Elt Ideal)) :
    after (Cert.ReferenceIdeal.Run.ops (F := Ideal)) V (Proc.devRef .tc main_v64)
      = refLin2
          (aggregate (F := Ideal)
            (refHidden (V (Proc.devRef .tc main_arg0)) (V (Proc.devRef .tc main_arg1)) (V (Proc.devRef .tc main_arg2)) (V (Proc.devRef .tc main_arg3)) (V (Proc.devRef .tc main_arg4)))
            (srcOf (V (Proc.devRef .tc main_arg1))) (dstOf (V (Proc.devRef .tc main_arg1))))
          (refHidden (V (Proc.devRef .tc main_arg0)) (V (Proc.devRef .tc main_arg1)) (V (Proc.devRef .tc main_arg2)) (V (Proc.devRef .tc main_arg3)) (V (Proc.devRef .tc main_arg4)))
          (V (Proc.devRef .tc main_arg5)) (V (Proc.devRef .tc main_arg6)) (V (Proc.devRef .tc main_arg7)) := by
  rw [refLin2_g, refHidden_g]
  exact ref_out_gen V

theorem ref_arg0 (V : Valuation τ sig (Elt Ideal)) : after (Cert.ReferenceIdeal.Run.ops (F := Ideal)) V (Proc.devRef .tc main_arg0) = V (Proc.devRef .tc main_arg0) := by after_results_simp
theorem ref_arg1 (V : Valuation τ sig (Elt Ideal)) : after (Cert.ReferenceIdeal.Run.ops (F := Ideal)) V (Proc.devRef .tc main_arg1) = V (Proc.devRef .tc main_arg1) := by after_results_simp
theorem ref_arg2 (V : Valuation τ sig (Elt Ideal)) : after (Cert.ReferenceIdeal.Run.ops (F := Ideal)) V (Proc.devRef .tc main_arg2) = V (Proc.devRef .tc main_arg2) := by after_results_simp
theorem ref_arg3 (V : Valuation τ sig (Elt Ideal)) : after (Cert.ReferenceIdeal.Run.ops (F := Ideal)) V (Proc.devRef .tc main_arg3) = V (Proc.devRef .tc main_arg3) := by after_results_simp
theorem ref_arg4 (V : Valuation τ sig (Elt Ideal)) : after (Cert.ReferenceIdeal.Run.ops (F := Ideal)) V (Proc.devRef .tc main_arg4) = V (Proc.devRef .tc main_arg4) := by after_results_simp
theorem ref_arg5 (V : Valuation τ sig (Elt Ideal)) : after (Cert.ReferenceIdeal.Run.ops (F := Ideal)) V (Proc.devRef .tc main_arg5) = V (Proc.devRef .tc main_arg5) := by after_results_simp
theorem ref_arg6 (V : Valuation τ sig (Elt Ideal)) : after (Cert.ReferenceIdeal.Run.ops (F := Ideal)) V (Proc.devRef .tc main_arg6) = V (Proc.devRef .tc main_arg6) := by after_results_simp
theorem ref_arg7 (V : Valuation τ sig (Elt Ideal)) : after (Cert.ReferenceIdeal.Run.ops (F := Ideal)) V (Proc.devRef .tc main_arg7) = V (Proc.devRef .tc main_arg7) := by after_results_simp

end Cert.Sage

end
-- ==== Proof.RNet.lean ====
/-
  The reference's result is the network's result. Entry by entry the reference's two dense stages are the hidden and
  the output layer, and the neighbourhood averages are the same function of the same arrays, so the reference's result
  buffer holds the network's result of the launch arguments; no operation writes an argument.
-/
import proofs.«181839_j72164040507401_1_alg».proof.Proof.RValue
import proofs.«181839_j72164040507401_1_alg».proof.Proof.Net

set_option maxRecDepth 16384

noncomputable section

namespace Cert.Sage

open Idealize.ShloMosaic Idealize.ShloMosaic.TcCoe Idealize.ShloMosaic.StableHlo Idealize.SL.Sem Cert.ReferenceIdeal Cert.ReferenceIdeal.Gen

theorem refHidden_eq (X : FVec Ideal Cert.ReferenceIdeal.S50000x64 .f32) (E : IVec Cert.ReferenceIdeal.S2x800000 32)
    (W1l : FVec Ideal Cert.ReferenceIdeal.S64x64 .f32) (b1 : FVec Ideal Cert.ReferenceIdeal.S64 .f32) (W1r : FVec Ideal Cert.ReferenceIdeal.S64x64 .f32) :
    refHidden X E W1l b1 W1r = net1 X E W1l b1 W1r := by
  unfold refHidden net1
  exact refLayer1_eq _ _ _ _ _

variable (m : (ℓ : Loc nD τ sig) → Buf (Elt Ideal) ℓ) (ρ : Dev nD → PrngReg)

/-- Every weakly fair execution of the idealized reference terminates with the result buffer at the network's result of
    the launch arguments, the arguments unchanged. -/
theorem ref_run : θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v64)
        = net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.ReferenceIdeal.defs (F := Ideal)) _ _).mono (fun r h c =>
      ⟨(h c main_v64).trans ((ref_out (launchContents m c)).trans (by
          rw [refHidden_eq]
          unfold net
          exact refLayer2_eq _ _ _ _ _)),
       (h c main_arg0).trans (ref_arg0 (launchContents m c)),
       (h c main_arg1).trans (ref_arg1 (launchContents m c)),
       (h c main_arg2).trans (ref_arg2 (launchContents m c)),
       (h c main_arg3).trans (ref_arg3 (launchContents m c)),
       (h c main_arg4).trans (ref_arg4 (launchContents m c)),
       (h c main_arg5).trans (ref_arg5 (launchContents m c)),
       (h c main_arg6).trans (ref_arg6 (launchContents m c)),
       (h c main_arg7).trans (ref_arg7 (launchContents m c))⟩)
    (Cert.ReferenceIdeal.Run.run_main (F := Ideal) m ρ)

end Cert.Sage

end
-- ==== Proof.lean ====
/-
  The certificate: a two-layer graph network (mean aggregation over incoming edges, a dense stage, the exponential
  linear unit, and the same again without the activation) computed with two tiled kernel launches agrees, over the
  extended reals, with the plain array program.

  Both idealized programs end with their result at ONE function of the eight arguments, `Cert.Sage.net`:
  * the kernel program, because each launch writes, tile of 2000 rows by tile, the dense stage of the arrays it finds
    (the two matrix products into a zero accumulator are the plain sums over the 64 contracted coordinates, the
    narrowing of the operands is the identity on extended reals), and what the launches find are the neighbourhood
    averages the host operations before them compute;
  * the reference, because its dense stages differ only in the order of the three summands, its exponential linear
    unit spells exp z - 1 as 1 * expm1(z) on the branch where that value is used, and its neighbourhood averages are
    the same chain of host operations on the same arrays.
  No finiteness of the inputs is needed: addition of extended reals is commutative and associative.
  The three programs run without a fault and leave their arguments unchanged; the idealized kernel program is the
  kernel program's own text read over the extended reals (no operation was rewritten).
-/
import proofs.«181839_j72164040507401_1_alg».proof.Defs
import proofs.«181839_j72164040507401_1_alg».proof.Proof.Gen.Kernel
import proofs.«181839_j72164040507401_1_alg».proof.Proof.Gen.Kernel.Frame
import proofs.«181839_j72164040507401_1_alg».proof.Proof.Gen.KernelIdeal
import proofs.«181839_j72164040507401_1_alg».proof.Proof.Gen.KernelIdeal.Frame
import proofs.«181839_j72164040507401_1_alg».proof.Proof.Gen.ReferenceIdeal
import proofs.«181839_j72164040507401_1_alg».proof.Proof.Gen.Pre_finite_inputs
import proofs.«181839_j72164040507401_1_alg».proof.Proof.KValue
import proofs.«181839_j72164040507401_1_alg».proof.Proof.RNet

noncomputable section

namespace Cert.Proof

open Idealize.ShloMosaic Idealize.SL.Sem

/-- The kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run (Cert.ReferenceIdeal.defs (F := Ideal)) _ _).mono (fun _ h c => (h c).2) (Cert.Sage.ref_run m ρ)

/-- The idealization rewrote nothing. -/
theorem preserves : Cert.preserves_Kernel_KernelIdeal := trivial

/-- From memories that agree on the arguments both idealized programs end with the network's result of those arguments. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.Sage.kernel_run m ρ, ?_⟩
  refine (θ_run (Cert.ReferenceIdeal.defs (F := Ideal)) _ _).mono (fun r h c => ⟨(h c).1.trans ?_, (h c).2⟩)
    (Cert.Sage.ref_run m' ρ')
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
